-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S80x10000 : Shape := ⟨2, ![80, 10000]⟩
abbrev S400x128 : Shape := ⟨2, ![400, 128]⟩
abbrev S80x128 : Shape := ⟨2, ![80, 128]⟩

abbrev nBuf : Space → Nat
  | .hbm => 4
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S80x10000, .f32⟩
  | .local _ .vmem, ⟨11, _⟩ => ⟨S80x10000, .f32⟩
  | .local _ .vmem, ⟨12, _⟩ => ⟨S400x128, .f32⟩
  | .local _ .vmem, ⟨13, _⟩ => ⟨S400x128, .f32⟩
  | .local _ .vmem, ⟨14, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S80x10000_S80x10000_0_0 : ∀ a, (![0, 0] : Fin 2 → Nat) a + S80x10000.size a ≤ S80x10000.size a
  h_S80x10000 : 0 < S80x10000.numel
  inb_S400x128_S80x128_0_0 : ∀ a, (![0, 0] : Fin 2 → Nat) a + S80x128.size a ≤ S400x128.size a
  h_S80x128 : 0 < S80x128.numel
  inb_S400x128_S80x128_80_0 : ∀ a, (![80, 0] : Fin 2 → Nat) a + S80x128.size a ≤ S400x128.size a
  inb_S400x128_S80x128_160_0 : ∀ a, (![160, 0] : Fin 2 → Nat) a + S80x128.size a ≤ S400x128.size a
  inb_S400x128_S80x128_240_0 : ∀ a, (![240, 0] : Fin 2 → Nat) a + S80x128.size a ≤ S400x128.size a
  inb_S400x128_S80x128_320_0 : ∀ a, (![320, 0] : Fin 2 → Nat) a + S80x128.size a ≤ S400x128.size a
  dot_S10000x128_S128x128_S10000x128_1_1_0_0_n_n_wf : DotDims.WF S10000x128 S128x128 S10000x128 [1] [1] [0] [0] [] []
  dot_S80x10000_S10000x128_S80x128_1_0_0_1_n_n_wf : DotDims.WF S80x10000 S10000x128 S80x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x10000.size a ≤ S10000x10000.size a
  hwx0_5 : ∀ i : grid0.Coords, EltTy.bits .f32 = 32 ∨ (Rect.block (s := S10000x10000) S80x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x10000.size a ≤ S10000x10000.size a
  hwx0_6 : ∀ i : grid0.Coords, EltTy.bits .f32 = 32 ∨ (Rect.block (s := S10000x10000) S80x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S80x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S80x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Entry.lean ====
/-
  The graph-convolution layer out = adj · (x · Wᵀ) as one pipelined kernel on a grid of 25 row bands of 400 rows:
  what the region is entered with and the vocabulary the run of its body is stated over.

  * the arrays as the region finds them: @main is the region alone, so each holds its launch contents;
  * a window's block at a grid point, read off its array: x and W whole (their index maps are constant), the five
    windows on the adjacency matrix at the 80-row bands 5t, 5t+1, …, 5t+4, the result's at the 400-row band t;
  * an input window's staging buffer holds its block at every point, whether the point fetched it or not;
  * the adjacency matrix is handed to five windows at once: the shares of it they hold, which compose to the whole;
  * the body's one branch, "this is the first grid point", decided over the grid;
  * the staging memrefs the pipeline passes the body at a point, and the scratch that carries h = x · Wᵀ.
-/
import proofs.«119001_g89764816486619_cont_sun_m_1084_14_alg».proof.Proof.Gen.Kernel.Launch
import proofs.«119001_g89764816486619_cont_sun_m_1084_14_alg».proof.Proof.Gen.Kernel.Skeleton
import proofs.«119001_g89764816486619_cont_sun_m_1084_14_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof
    data whose array is the entry contents and whose body leaves the block in place: where the point does not fetch,
    the block index has not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The shares of the arrays -/

/-- The share each input window holds of its array: x and W whole; the adjacency matrix, which five windows read
    at once, split five ways (half, a quarter, an eighth and two sixteenths: they compose to the whole). -/
def qOf : Fin 8 → PosShare TreeShare
  | ⟨0, _⟩ => fullShare
  | ⟨1, _⟩ => fullShare
  | ⟨2, _⟩ => fullShare.left
  | ⟨3, _⟩ => fullShare.right.left
  | ⟨4, _⟩ => fullShare.right.right.left
  | ⟨5, _⟩ => fullShare.right.right.right.left
  | ⟨6, _⟩ => fullShare.right.right.right.right
  | ⟨_ + 7, _⟩ => fullShare

/-! ## The body's branch -/

/-- The condition of the body's one conditional, from the grid coordinates: the point is the first. -/
abbrev isFirst (i : grid0.Coords) : Prop := (Scalar.cmpi .ne (Scalar.extui (Scalar.cmpi .eq (BitVec.ofNat 32 (i 0).val) 0#32)) 0#32) = 1#1
/-- It holds at point 0 only — decided over the grid. -/
theorem isFirst_iff : ∀ t : Fin cfg0.N, isFirst (grid0.coords t) ↔ t.val = 0 :=
  (by decide +kernel : ∀ t : Fin grid0.N, isFirst (grid0.coords t) ↔ t.val = 0)

/-- No window is idle anywhere. -/
theorem live_all : ∀ (w : Fin cfg0.W) (t : Fin cfg0.N), cfg0.idle w (grid0.coords t) = false := by decide +kernel

/-! ## The memrefs the body is called with -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
/-- The scratch that carries h = x · Wᵀ from the first point on, -/
abbrev scM : Memref sig .tc .vmem S10000x128 .f32 := Memref.whole cc0_scratch0
/-- as a view: what it holds is stated through it; -/
abbrev VS : View sig .tc .vmem S10000x128 .f32 := (scM).view
/-- and one staging buffer of the result's window, through which its contents are stated. -/
abbrev VO : View sig .tc .vmem S400x128 .f32 := (Memref.whole cc0_stg7_0 : Memref sig .tc .vmem S400x128 .f32).view

/-- The core's scoped buffers that are no staging buffer are the scratch alone, as a memref owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Gcn

end
-- ==== Proof.K.RunFirst.lean ====
/-
  The body at the first grid point: h = x · Wᵀ is computed from the blocks of x and W (the whole arrays) and stored over
  the whole scratch; then, as at every point, each of the five 80-row bands of the adjacency matrix is multiplied with h
  (read back from the scratch) and stored into its 80 rows of the result's block. The witnesses the run finds: the
  stores the result's staging buffer ends with, and the store the scratch ends with.
-/
import proofs.«119001_g89764816486619_cont_sun_m_1084_14_alg».proof.Proof.K.Entry

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves at the first point in the result's staging buffer and in the scratch (last first), WITH the
    proof that on whole staging memrefs — x's and W's at `x1`, `x2`, the adjacency bands at `a3 … a7`, the result's and
    the scratch at anything — the body runs to its return holding the inputs as they were and the two buffers with
    those stores written. -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : isFirst i)
    (x1 : Vec F S10000x128 .f32) (x2 : Vec F S128x128 .f32) (a3 a4 a5 a6 a7 : Vec F S80x10000 .f32) :
    Σ' (L8 : List (View.Piece (Elt F) S400x128 .f32)), { L9 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, fun E K => ?run⟩
  case run =>
    simp only [cc0__fused_body_eq_skeleton]; unfold cc0__fused_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2
    obtain rfl := harg3.eq_unread hf3; obtain rfl := harg4.eq_unread hf4; obtain rfl := harg5.eq_unread hf5
    obtain rfl := harg6.eq_unread hf6; obtain rfl := harg7.eq_unread hf7
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.Kernel.Gcn

end
-- ==== Proof.K.RunLater.lean ====
/-
  The body at a grid point that is not the first: h = x · Wᵀ is already in the scratch. Each of the five 80-row bands of
  the adjacency matrix the point holds is multiplied with h (read back from the scratch) and the product stored into its
  80 rows of the result's 400-row block. What the result's staging buffer ends with, as the list of its five stores, is
  the witness the run finds; the inputs and the scratch are handed back as they were.
-/
import proofs.«119001_g89764816486619_cont_sun_m_1084_14_alg».proof.Proof.K.Entry

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The five stores the body leaves in the result's staging buffer at a later point (last first), WITH the proof that on
    whole staging memrefs — the adjacency bands at `a3 … a7`, the scratch at `h9`, the result's at anything — the body
    runs to its return holding the inputs and the scratch as they were and the result's buffer with those stores written. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : ¬isFirst i)
    (a3 a4 a5 a6 a7 : Vec F S80x10000 .f32) (h9 : Vec F S10000x128 .f32) :
    { L8 : List (View.Piece (Elt F) S400x128 .f32) //
      ∀ (x1 : Vec F S10000x128 .f32) (x2 : Vec F S128x128 .f32) (E : Set ℕ) (K : PUnit → sProp 𝕄),
        iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
            ∗ (∃ d, owns (c : Thread nD τ) arg8 fullShare d) ∗ owns (c : Thread nD τ) arg9 fullShare h9
            ∗ (iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
                ∗ (∃ f, arg8.view.loc (c : Thread nD τ) ↦[arg8.view.set]{fullShare} arg8.view.writes (Elt F) f L8) ∗ owns (c : Thread nD τ) arg9 fullShare h9) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, fun x1 x2 E K => ?run⟩
  case run =>
    simp only [cc0__fused_body_eq_skeleton]; unfold cc0__fused_body_skel
    simp only [k0_part1_eq_skeleton]
    unfold owns
    iintro ⟨H1, H2, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg9.eq_unread hf9
    sl_exec (disch := exact hc)
    sl_step
    iapply Hk
    isplitl [H1]; · iexact H1
    isplitl [H2]; · iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg9.read_unread _
    iexact H9

end Cert.Kernel.Gcn

end
-- ==== Proof.K.Data.lean ====
/-
  What the kernel leaves at each grid point, and the pipeline's proof data over it.

  * The first point's run leaves h = x · Wᵀ in the scratch as one store covering it, and five stores of 80 rows each
    tiling the result's 400-row block; a later point's run leaves five such stores computed from h as the scratch
    holds it. Read back through any view over anything, a covered buffer is what its stores say.
  * `hS`: what the scratch holds from the first point on. `outAt t`: what the result's staging buffer holds after
    point `t`. The region invariant: before the first point the scratch at anything, afterwards the scratch at `hS`.
  * The proof data: the arrays as the region finds them; each input's buffer left at its block, the result's at
    `outAt`; the adjacency matrix lent to its five windows at the shares `qOf`; nothing owed.
-/
import proofs.«119001_g89764816486619_cont_sun_m_1084_14_alg».proof.Proof.K.RunFirst
import proofs.«119001_g89764816486619_cont_sun_m_1084_14_alg».proof.Proof.K.RunLater
import Idealize.ShloMosaic.Lib.Ring

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover their buffers -/

section Covers

variable (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (x1 : Vec F S10000x128 .f32) (x2 : Vec F S128x128 .f32) (a3 a4 a5 a6 a7 : Vec F S80x10000 .f32) (h9 : Vec F S10000x128 .f32)

/-- The first point's store into the scratch covers it: one piece of the scratch's own size. -/
theorem cover_scratch_first (hc : isFirst i) (y : S10000x128.Idx) :
    ∃ pc ∈ (runFirst (F := F) c i arg1 harg1 arg2 harg2 arg3 harg3 arg4 harg4 arg5 harg5 arg6 harg6 arg7 harg7 arg8 harg8 arg9 harg9 hc x1 x2 a3 a4 a5 a6 a7).2.1, y ∈ pc.1.set :=
  View.cover_of_tiledL (runFirst (F := F) c i arg1 harg1 arg2 harg2 arg3 harg3 arg4 harg4 arg5 harg5 arg6 harg6 arg7 harg7 arg8 harg8 arg9 harg9 hc x1 x2 a3 a4 a5 a6 a7).2.1 S10000x128.size (by sl_kernel_rfl) y

/-- The first point's stores into the result's block cover it: five pieces of 80 rows tiling the 400. -/
theorem cover_out_first (hc : isFirst i) (y : S400x128.Idx) :
    ∃ pc ∈ (runFirst (F := F) c i arg1 harg1 arg2 harg2 arg3 harg3 arg4 harg4 arg5 harg5 arg6 harg6 arg7 harg7 arg8 harg8 arg9 harg9 hc x1 x2 a3 a4 a5 a6 a7).1, y ∈ pc.1.set :=
  View.cover_of_tiledL (runFirst (F := F) c i arg1 harg1 arg2 harg2 arg3 harg3 arg4 harg4 arg5 harg5 arg6 harg6 arg7 harg7 arg8 harg8 arg9 harg9 hc x1 x2 a3 a4 a5 a6 a7).1 S80x128.size (by sl_kernel_rfl) y

/-- A later point's stores into the result's block cover it likewise. -/
theorem cover_out_later (hc : ¬isFirst i) (y : S400x128.Idx) :
    ∃ pc ∈ (runLater (F := F) c i arg1 harg1 arg2 harg2 arg3 harg3 arg4 harg4 arg5 harg5 arg6 harg6 arg7 harg7 arg8 harg8 arg9 harg9 hc a3 a4 a5 a6 a7 h9).1, y ∈ pc.1.set :=
  View.cover_of_tiledL (runLater (F := F) c i arg1 harg1 arg2 harg2 arg3 harg3 arg4 harg4 arg5 harg5 arg6 harg6 arg7 harg7 arg8 harg8 arg9 harg9 hc a3 a4 a5 a6 a7 h9).1 S80x128.size (by sl_kernel_rfl) y

end Covers

/-! ## What each point leaves -/

/-- The first grid point. -/
abbrev t0 : Fin cfg0.N := ⟨0, by decide⟩

/-- The first point's run, at that point's staging memrefs and blocks. -/
def firstRun (c : Dev nD) :=
  runFirst (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((isFirst_iff t0).mpr rfl)
    (iblk m c 0 t0) (iblk m c 1 t0) (iblk m c 2 t0) (iblk m c 3 t0) (iblk m c 4 t0) (iblk m c 5 t0) (iblk m c 6 t0)

/-- What the scratch holds from the first point on: the first point's store read back. -/
def hS (c : Dev nD) : Vec F S10000x128 .f32 :=
  VS.read (Elt F) (VS.writes (Elt F) VS.junk (firstRun m c).2.1)

/-- What the result's staging buffer holds after the first point: its five stores read back. -/
def outFirst (c : Dev nD) : Vec F S400x128 .f32 :=
  VO.read (Elt F) (VO.writes (Elt F) VO.junk (firstRun m c).1)

/-- A later point's run, at that point's staging memrefs and blocks, the scratch at `hS`. -/
def laterRun (c : Dev nD) (t : Fin cfg0.N) (ht : t.val ≠ 0) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => ht ((isFirst_iff t).mp h))
    (iblk m c 2 t) (iblk m c 3 t) (iblk m c 4 t) (iblk m c 5 t) (iblk m c 6 t) (hS m c)

/-- What the result's staging buffer holds after a later point. -/
def outLater (c : Dev nD) (t : Fin cfg0.N) (ht : t.val ≠ 0) : Vec F S400x128 .f32 :=
  VO.read (Elt F) (VO.writes (Elt F) VO.junk (laterRun m c t ht).1)

/-- What the result's staging buffer holds after point `t`. -/
def outAt (c : Dev nD) (t : Fin cfg0.N) : Vec F S400x128 .f32 :=
  if ht : t.val = 0 then outFirst m c else outLater m c t ht

theorem outAt_first (c : Dev nD) : outAt m c t0 = outFirst m c := dif_pos rfl
theorem outAt_later (c : Dev nD) (t : Fin cfg0.N) (ht : t.val ≠ 0) : outAt m c t = outLater m c t ht := dif_neg ht

/-! ## The region invariant -/

/-- Before position `n`: at the first point the scratch at anything (the core's scoped buffers that are no staging
    buffer); afterwards the scratch at h. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (hS m c)

theorem PhiS_zero (c : Dev nD) : PhiS m c 0 = iprop(∃ d, owns (c : Thread nD τ) scM fullShare d) := scopedRest_scratch c
theorem PhiS_succ (c : Dev nD) (n : ℕ) : PhiS m c (n + 1) = owns (c : Thread nD τ) scM fullShare (hS m c) := rfl
theorem PhiS_pos (c : Dev nD) (n : ℕ) (hn : n ≠ 0) : PhiS m c n = owns (c : Thread nD τ) scM fullShare (hS m c) := by
  cases n with
  | zero => exact absurd rfl hn
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q := qOf
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qOf w := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each input's current staging buffer holds its block at every point, fetched there or not. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

end Cert.Kernel.Gcn

end
-- ==== Proof.K.Body.lean ====
/-
  The body obligation: at every grid point, from the region invariant and each window's current staging buffer at what
  it then holds, the kernel's body runs to the invariant at the next point and every buffer at what the proof data say
  it leaves. The inputs' buffers hold their blocks; the result's holds anything (its block was written back at the point
  before). At the first point the scratch holds anything and the run stores h into it; at a later point the scratch holds
  h and the run hands it back. What a covered buffer holds after the run's stores is the stores read back.
-/
import proofs.«119001_g89764816486619_cont_sun_m_1084_14_alg».proof.Proof.K.Data

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [Phi_castSucc, Phi_succ, PhiS_succ, after_0, after_1, after_2, after_3, after_4, after_5, after_6, after_7]
  by_cases ht : t.val = 0
  · obtain rfl : t = t0 := Fin.ext ht
    rw [show PhiS m c (t0 : Fin cfg0.N).val = PhiS m c 0 from rfl, PhiS_zero, outAt_first]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRun m c).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, ⟨%e9, H9⟩⟩
    isplitl [H9]
    · unfold owns; iexists _; isplitr
      swap; · iexact H9
      ipureintro; exact View.read_writes_of_cover _ _ _ _ _ (cover_scratch_first c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (cover_out_first c _ _ _ _ _ _ _ _ _ _ _ _ _ _ _ _ _ _ _ _ _ _ _ _ _ _ _)
  · rw [PhiS_pos m c _ ht, outAt_later m c t ht]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun m c t ht).2 (iblk m c 0 t) (iblk m c 1 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (cover_out_later c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scratch at anything) is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

/-- After the last point the invariant gives the scratch back at something: h is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_scratch]
  iintro H; iexists _; iexact H

end Cert.Kernel.Gcn

end
-- ==== Proof.K.Launch.lean ====
/-
  The launch of the one region whose five adjacency windows read ONE array: for any proof data over the entry
  contents that lends each input window the share `qOf` gives it, owes nothing, satisfies the body obligation and
  whose invariant is entered from, and returns to, the scratch at anything, every weakly fair execution of @main
  terminates without a fault with every window's array at what the write-backs leave (`Dat.arrAt … N`).
-/
import proofs.«119001_g89764816486619_cont_sun_m_1084_14_alg».proof.Proof.K.Entry

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry

The launch hands the region the four distinct arrays behind its eight windows, each whole at the full share at its
entry contents; the proof data want one points-to per window. x, W and the result have one window each. The
adjacency matrix is read by five windows at once: its full share is split along the share tree into a half, a
quarter, an eighth and two sixteenths, one part to each window, all five at the same contents. -/

/-- The distinct arrays behind the eight windows: x, W, the adjacency matrix, the result. -/
theorem arrRefs_eq : Finset.univ.image (Pipeline.arrRef spec0) = [main_arg0, main_arg2, main_arg1, main_v0].toFinset := by decide

/-- One input window's conjunct of the arrays at entry: its array whole, at the share it is lent, at the entry contents. -/
theorem arr_in {c : Dev nD} (dat : Dat τ (Elt F) Unit ℕ (UR sig nD τ) ℕ cfg0 c) (w : Fin cfg0.W) (hio : (cfg0.win w).isOut = false)
    (hA : dat.A w = V m c (Pipeline.arrRef spec0 w)) (hq : dat.q w = qOf w) :
    ((cfg0.win w).arr.view.loc (c : Thread nD τ) ↦[(cfg0.win w).arr.view.set]{dat.share w} dat.arrAt w 0 : sProp 𝕄)
      = (((c : Thread nD τ).loc (Pipeline.arrRef spec0 w)) ↦{qOf w} V m c (Pipeline.arrRef spec0 w)) := by
  rw [(arr_whole0 w).set_eq_univ]
  unfold Dat.share
  rw [hio, if_neg (by decide), hq, show dat.arrAt w 0 = dat.A w from rfl, hA]

/-- The output window's conjunct: the result array whole, at the full share, at the entry contents. -/
theorem arr_out {c : Dev nD} (dat : Dat τ (Elt F) Unit ℕ (UR sig nD τ) ℕ cfg0 c) (w : Fin cfg0.W) (hio : (cfg0.win w).isOut = true)
    (hA : dat.A w = V m c (Pipeline.arrRef spec0 w)) :
    ((cfg0.win w).arr.view.loc (c : Thread nD τ) ↦[(cfg0.win w).arr.view.set]{dat.share w} dat.arrAt w 0 : sProp 𝕄)
      = (((c : Thread nD τ).loc (Pipeline.arrRef spec0 w)) ↦{fullShare} V m c (Pipeline.arrRef spec0 w)) := by
  rw [(arr_whole0 w).set_eq_univ]
  unfold Dat.share
  rw [hio, if_pos rfl, show dat.arrAt w 0 = dat.A w from rfl, hA]

/-- The distinct arrays' buffers one by one. -/
theorem arrBufs_eq (c : Dev nD) : (Pipeline.arrBufs spec0 c (V m c) : sProp 𝕄)
    = iprop((((c : Thread nD τ).loc main_arg0) ↦{fullShare} V m c main_arg0) ∗ (((c : Thread nD τ).loc main_arg2) ↦{fullShare} V m c main_arg2)
        ∗ (((c : Thread nD τ).loc main_arg1) ↦{fullShare} V m c main_arg1) ∗ (((c : Thread nD τ).loc main_v0) ↦{fullShare} V m c main_v0)) := by
  unfold Pipeline.arrBufs
  rw [bigSep_eq_bigSepL_of_eq _ arrRefs_eq (by decide)]
  rfl

/-- The four arrays, each whole at the full share at its entry contents, make the eight windows' arrays at entry:
    x, W and the result go to their one window; the adjacency matrix is split along the share tree, a half, a quarter,
    an eighth and two sixteenths, one part to each of the five windows that read it. -/
theorem arrays_of_bufs {c : Dev nD} (dat : Dat τ (Elt F) Unit ℕ (UR sig nD τ) ℕ cfg0 c)
    (hA : ∀ w, dat.A w = V m c (Pipeline.arrRef spec0 w)) (hq : ∀ w, dat.q w = qOf w) :
    (Pipeline.arrBufs spec0 c (V m c) : sProp 𝕄) ⊢ dat.arrays (dat.arrAt · 0) := by
  unfold Dat.arrays
  rw [arrBufs_eq, bigSep_W0,
    arr_in m dat 0 rfl (hA 0) (hq 0), arr_in m dat 1 rfl (hA 1) (hq 1), arr_in m dat 2 rfl (hA 2) (hq 2),
    arr_in m dat 3 rfl (hA 3) (hq 3), arr_in m dat 4 rfl (hA 4) (hq 4), arr_in m dat 5 rfl (hA 5) (hq 5),
    arr_in m dat 6 rfl (hA 6) (hq 6), arr_out m dat 7 rfl (hA 7)]
  iintro ⟨Hx, HW, Hadj, Ho⟩
  ihave Hadj := (pointsTo_share (PosShare.mem_left_op_right fullShare)).1 $$ Hadj
  icases Hadj with ⟨H2, Hadj⟩
  ihave Hadj := (pointsTo_share (PosShare.mem_left_op_right fullShare.right)).1 $$ Hadj
  icases Hadj with ⟨H3, Hadj⟩
  ihave Hadj := (pointsTo_share (PosShare.mem_left_op_right fullShare.right.right)).1 $$ Hadj
  icases Hadj with ⟨H4, Hadj⟩
  ihave Hadj := (pointsTo_share (PosShare.mem_left_op_right fullShare.right.right.right)).1 $$ Hadj
  icases Hadj with ⟨H5, H6⟩
  isplitl [Hx]; · iexact Hx
  isplitl [HW]; · iexact HW
  isplitl [H2]; · iexact H2
  isplitl [H3]; · iexact H3
  isplitl [H4]; · iexact H4
  isplitl [H5]; · iexact H5
  isplitl [H6]; · iexact H6
  iexact Ho

/-! ## The launch

No buffer outside the windows' arrays is unscoped, so nothing is routed around the region: the invariant is entered
from the scoped rest alone and returns to it, and the final memory is read window by window. -/

/-- The run of @main from the launch state, for proof data as above. -/
theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qOf w)
    (howed : ∀ c t, (dats 0 c).owed t = 0)
    (hbody : ∀ c, BodyObligationLoose (dats 0 c) (defs₀ (F := F)) Variants.none () Set.univ)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) ⟨m, fun _ => 0, ρ⟩ (fun r => ∀ c : Dev nD, ∀ w : Fin cfg0.W,
      r.2.mem ((spec0 w).arr.view.loc (c.tc : Thread nD τ)) = (dats 0 c).arrAt w cfg0.N) := by
  classical
  exact Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := .rfl)
    (V := V m) (hmain := hmain m Variants.none)
    (hsplit := fun c => arrays_of_bufs m (dats 0 c) (hA c) (hq c))
    (X := fun _ => iprop(emp)) (Y := fun _ => iprop(emp)) (Z := fun _ => iprop(emp))
    (hX := fun c => by rw [unscopedRest0_eq]; iintro -; isplitr <;> iempintro)
    (hin := fun c => (show iprop(emp ∗ Pipeline.scopedRest spec0 c) ⊢ Pipeline.scopedRest spec0 c from by iintro ⟨-, H⟩; iexact H).trans (hin c))
    (hout := fun c => (hout c).trans (by iintro H; isplitr; · iempintro
                                         iexact H))
    (QY := fun _ _ => True)
    (hY := fun c s' => by
      iintro ⟨-, -, HSI⟩; imodintro
      isplitr; · ipureintro; trivial
      iexact HSI)
    (hQ := fun _ h c w => (h c).1 w)

end Cert.Kernel.Gcn

end
-- ==== Proof.K.Frame.lean ====
/-
  The run of @main and the frame: every weakly fair execution terminates without a fault, each window's array ends at
  what the write-backs leave, and the three argument arrays — only ever read — end as they were launched.
-/
import proofs.«119001_g89764816486619_cont_sun_m_1084_14_alg».proof.Proof.K.Body
import proofs.«119001_g89764816486619_cont_sun_m_1084_14_alg».proof.Proof.K.Launch

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every window's array named. -/
theorem run_main : θ_run defs (onTc (τ := τ) (main (F := F))) ⟨m, fun _ => 0, ρ⟩ (fun r => ∀ c : Dev nD, ∀ w : Fin cfg0.W,
    r.2.mem ((spec0 w).arr.view.loc (c.tc : Thread nD τ)) = (dats m 0 c).arrAt w cfg0.N) :=
  run_of m ρ (dats m) (A_eq m) (q_eq m) (fun _ _ => rfl) (fun c => (body_obligation m c).loose) (hin m) (hout m)

/-- The run with the result array named and the arguments unchanged: an input window's array is never written. -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 7,
      (h c 0).trans (((dats m 0 c).arrAt_in 0 rfl _).trans (A_eq m c 0)),
      (h c 2).trans (((dats m 0 c).arrAt_in 2 rfl _).trans (A_eq m c 2)),
      (h c 1).trans (((dats m 0 c).arrAt_in 1 rfl _).trans (A_eq m c 1))⟩) (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Gcn

end
-- ==== Proof.KI.Entry.lean ====
/-
  The graph-convolution layer out = adj · (x · Wᵀ) as one pipelined kernel on a grid of 25 row bands of 400 rows:
  what the region is entered with and the vocabulary the run of its body is stated over.

  * the arrays as the region finds them: @main is the region alone, so each holds its launch contents;
  * a window's block at a grid point, read off its array: x and W whole (their index maps are constant), the five
    windows on the adjacency matrix at the 80-row bands 5t, 5t+1, …, 5t+4, the result's at the 400-row band t;
  * an input window's staging buffer holds its block at every point, whether the point fetched it or not;
  * the adjacency matrix is handed to five windows at once: the shares of it they hold, which compose to the whole;
  * the body's one branch, "this is the first grid point", decided over the grid;
  * the staging memrefs the pipeline passes the body at a point, and the scratch that carries h = x · Wᵀ.
-/
import proofs.«119001_g89764816486619_cont_sun_m_1084_14_alg».proof.Proof.Gen.KernelIdeal.Launch
import proofs.«119001_g89764816486619_cont_sun_m_1084_14_alg».proof.Proof.Gen.KernelIdeal.Skeleton
import proofs.«119001_g89764816486619_cont_sun_m_1084_14_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof
    data whose array is the entry contents and whose body leaves the block in place: where the point does not fetch,
    the block index has not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The shares of the arrays -/

/-- The share each input window holds of its array: x and W whole; the adjacency matrix, which five windows read
    at once, split five ways (half, a quarter, an eighth and two sixteenths: they compose to the whole). -/
def qOf : Fin 8 → PosShare TreeShare
  | ⟨0, _⟩ => fullShare
  | ⟨1, _⟩ => fullShare
  | ⟨2, _⟩ => fullShare.left
  | ⟨3, _⟩ => fullShare.right.left
  | ⟨4, _⟩ => fullShare.right.right.left
  | ⟨5, _⟩ => fullShare.right.right.right.left
  | ⟨6, _⟩ => fullShare.right.right.right.right
  | ⟨_ + 7, _⟩ => fullShare

/-! ## The body's branch -/

/-- The condition of the body's one conditional, from the grid coordinates: the point is the first. -/
abbrev isFirst (i : grid0.Coords) : Prop := (Scalar.cmpi .ne (Scalar.extui (Scalar.cmpi .eq (BitVec.ofNat 32 (i 0).val) 0#32)) 0#32) = 1#1
/-- It holds at point 0 only — decided over the grid. -/
theorem isFirst_iff : ∀ t : Fin cfg0.N, isFirst (grid0.coords t) ↔ t.val = 0 :=
  (by decide +kernel : ∀ t : Fin grid0.N, isFirst (grid0.coords t) ↔ t.val = 0)

/-- No window is idle anywhere. -/
theorem live_all : ∀ (w : Fin cfg0.W) (t : Fin cfg0.N), cfg0.idle w (grid0.coords t) = false := by decide +kernel

/-! ## The memrefs the body is called with -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
/-- The scratch that carries h = x · Wᵀ from the first point on, -/
abbrev scM : Memref sig .tc .vmem S10000x128 .f32 := Memref.whole cc0_scratch0
/-- as a view: what it holds is stated through it; -/
abbrev VS : View sig .tc .vmem S10000x128 .f32 := (scM).view
/-- and one staging buffer of the result's window, through which its contents are stated. -/
abbrev VO : View sig .tc .vmem S400x128 .f32 := (Memref.whole cc0_stg7_0 : Memref sig .tc .vmem S400x128 .f32).view

/-- The core's scoped buffers that are no staging buffer are the scratch alone, as a memref owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Gcn

end
-- ==== Proof.KI.RunFirst.lean ====
/-
  The body at the first grid point: h = x · Wᵀ is computed from the blocks of x and W (the whole arrays) and stored over
  the whole scratch; then, as at every point, each of the five 80-row bands of the adjacency matrix is multiplied with h
  (read back from the scratch) and stored into its 80 rows of the result's block. The witnesses the run finds: the
  stores the result's staging buffer ends with, and the store the scratch ends with.
-/
import proofs.«119001_g89764816486619_cont_sun_m_1084_14_alg».proof.Proof.KI.Entry

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves at the first point in the result's staging buffer and in the scratch (last first), WITH the
    proof that on whole staging memrefs — x's and W's at `x1`, `x2`, the adjacency bands at `a3 … a7`, the result's and
    the scratch at anything — the body runs to its return holding the inputs as they were and the two buffers with
    those stores written. -/
noncomputable def runFirst (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : isFirst i)
    (x1 : Vec F S10000x128 .f32) (x2 : Vec F S128x128 .f32) (a3 a4 a5 a6 a7 : Vec F S80x10000 .f32) :
    Σ' (L8 : List (View.Piece (Elt F) S400x128 .f32)), { L9 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
            ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, ?_, fun E K => ?run⟩
  case run =>
    simp only [cc0__fused_body_eq_skeleton]; unfold cc0__fused_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2
    obtain rfl := harg3.eq_unread hf3; obtain rfl := harg4.eq_unread hf4; obtain rfl := harg5.eq_unread hf5
    obtain rfl := harg6.eq_unread hf6; obtain rfl := harg7.eq_unread hf7
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.KernelIdeal.Gcn

end
-- ==== Proof.KI.RunLater.lean ====
/-
  The body at a grid point that is not the first: h = x · Wᵀ is already in the scratch. Each of the five 80-row bands of
  the adjacency matrix the point holds is multiplied with h (read back from the scratch) and the product stored into its
  80 rows of the result's 400-row block. What the result's staging buffer ends with, as the list of its five stores, is
  the witness the run finds; the inputs and the scratch are handed back as they were.
-/
import proofs.«119001_g89764816486619_cont_sun_m_1084_14_alg».proof.Proof.KI.Entry

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The five stores the body leaves in the result's staging buffer at a later point (last first), WITH the proof that on
    whole staging memrefs — the adjacency bands at `a3 … a7`, the scratch at `h9`, the result's at anything — the body
    runs to its return holding the inputs and the scratch as they were and the result's buffer with those stores written. -/
noncomputable def runLater (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : ¬isFirst i)
    (a3 a4 a5 a6 a7 : Vec F S80x10000 .f32) (h9 : Vec F S10000x128 .f32) :
    { L8 : List (View.Piece (Elt F) S400x128 .f32) //
      ∀ (x1 : Vec F S10000x128 .f32) (x2 : Vec F S128x128 .f32) (E : Set ℕ) (K : PUnit → sProp 𝕄),
        iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
            ∗ (∃ d, owns (c : Thread nD τ) arg8 fullShare d) ∗ owns (c : Thread nD τ) arg9 fullShare h9
            ∗ (iprop(owns (c : Thread nD τ) arg1 fullShare x1 ∗ owns (c : Thread nD τ) arg2 fullShare x2 ∗ owns (c : Thread nD τ) arg3 fullShare a3 ∗ owns (c : Thread nD τ) arg4 fullShare a4 ∗ owns (c : Thread nD τ) arg5 fullShare a5 ∗ owns (c : Thread nD τ) arg6 fullShare a6 ∗ owns (c : Thread nD τ) arg7 fullShare a7
                ∗ (∃ f, arg8.view.loc (c : Thread nD τ) ↦[arg8.view.set]{fullShare} arg8.view.writes (Elt F) f L8) ∗ owns (c : Thread nD τ) arg9 fullShare h9) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9) K } := by
  refine ⟨?_, fun x1 x2 E K => ?run⟩
  case run =>
    simp only [cc0__fused_body_eq_skeleton]; unfold cc0__fused_body_skel
    simp only [k0_part1_eq_skeleton]
    unfold owns
    iintro ⟨H1, H2, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg9.eq_unread hf9
    sl_exec (disch := exact hc)
    sl_step
    iapply Hk
    isplitl [H1]; · iexact H1
    isplitl [H2]; · iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg9.read_unread _
    iexact H9

end Cert.KernelIdeal.Gcn

end
-- ==== Proof.KI.Data.lean ====
/-
  What the kernel leaves at each grid point, and the pipeline's proof data over it.

  * The first point's run leaves h = x · Wᵀ in the scratch as one store covering it, and five stores of 80 rows each
    tiling the result's 400-row block; a later point's run leaves five such stores computed from h as the scratch
    holds it. Read back through any view over anything, a covered buffer is what its stores say.
  * `hS`: what the scratch holds from the first point on. `outAt t`: what the result's staging buffer holds after
    point `t`. The region invariant: before the first point the scratch at anything, afterwards the scratch at `hS`.
  * The proof data: the arrays as the region finds them; each input's buffer left at its block, the result's at
    `outAt`; the adjacency matrix lent to its five windows at the shares `qOf`; nothing owed.
-/
import proofs.«119001_g89764816486619_cont_sun_m_1084_14_alg».proof.Proof.KI.RunFirst
import proofs.«119001_g89764816486619_cont_sun_m_1084_14_alg».proof.Proof.KI.RunLater
import Idealize.ShloMosaic.Lib.Ring

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover their buffers -/

section Covers

variable (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (x1 : Vec F S10000x128 .f32) (x2 : Vec F S128x128 .f32) (a3 a4 a5 a6 a7 : Vec F S80x10000 .f32) (h9 : Vec F S10000x128 .f32)

/-- The first point's store into the scratch covers it: one piece of the scratch's own size. -/
theorem cover_scratch_first (hc : isFirst i) (y : S10000x128.Idx) :
    ∃ pc ∈ (runFirst (F := F) c i arg1 harg1 arg2 harg2 arg3 harg3 arg4 harg4 arg5 harg5 arg6 harg6 arg7 harg7 arg8 harg8 arg9 harg9 hc x1 x2 a3 a4 a5 a6 a7).2.1, y ∈ pc.1.set :=
  View.cover_of_tiledL (runFirst (F := F) c i arg1 harg1 arg2 harg2 arg3 harg3 arg4 harg4 arg5 harg5 arg6 harg6 arg7 harg7 arg8 harg8 arg9 harg9 hc x1 x2 a3 a4 a5 a6 a7).2.1 S10000x128.size (by sl_kernel_rfl) y

/-- The first point's stores into the result's block cover it: five pieces of 80 rows tiling the 400. -/
theorem cover_out_first (hc : isFirst i) (y : S400x128.Idx) :
    ∃ pc ∈ (runFirst (F := F) c i arg1 harg1 arg2 harg2 arg3 harg3 arg4 harg4 arg5 harg5 arg6 harg6 arg7 harg7 arg8 harg8 arg9 harg9 hc x1 x2 a3 a4 a5 a6 a7).1, y ∈ pc.1.set :=
  View.cover_of_tiledL (runFirst (F := F) c i arg1 harg1 arg2 harg2 arg3 harg3 arg4 harg4 arg5 harg5 arg6 harg6 arg7 harg7 arg8 harg8 arg9 harg9 hc x1 x2 a3 a4 a5 a6 a7).1 S80x128.size (by sl_kernel_rfl) y

/-- A later point's stores into the result's block cover it likewise. -/
theorem cover_out_later (hc : ¬isFirst i) (y : S400x128.Idx) :
    ∃ pc ∈ (runLater (F := F) c i arg1 harg1 arg2 harg2 arg3 harg3 arg4 harg4 arg5 harg5 arg6 harg6 arg7 harg7 arg8 harg8 arg9 harg9 hc a3 a4 a5 a6 a7 h9).1, y ∈ pc.1.set :=
  View.cover_of_tiledL (runLater (F := F) c i arg1 harg1 arg2 harg2 arg3 harg3 arg4 harg4 arg5 harg5 arg6 harg6 arg7 harg7 arg8 harg8 arg9 harg9 hc a3 a4 a5 a6 a7 h9).1 S80x128.size (by sl_kernel_rfl) y

end Covers

/-! ## What each point leaves -/

/-- The first grid point. -/
abbrev t0 : Fin cfg0.N := ⟨0, by decide⟩

/-- The first point's run, at that point's staging memrefs and blocks. -/
def firstRun (c : Dev nD) :=
  runFirst (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((isFirst_iff t0).mpr rfl)
    (iblk m c 0 t0) (iblk m c 1 t0) (iblk m c 2 t0) (iblk m c 3 t0) (iblk m c 4 t0) (iblk m c 5 t0) (iblk m c 6 t0)

/-- What the scratch holds from the first point on: the first point's store read back. -/
def hS (c : Dev nD) : Vec F S10000x128 .f32 :=
  VS.read (Elt F) (VS.writes (Elt F) VS.junk (firstRun m c).2.1)

/-- What the result's staging buffer holds after the first point: its five stores read back. -/
def outFirst (c : Dev nD) : Vec F S400x128 .f32 :=
  VO.read (Elt F) (VO.writes (Elt F) VO.junk (firstRun m c).1)

/-- A later point's run, at that point's staging memrefs and blocks, the scratch at `hS`. -/
def laterRun (c : Dev nD) (t : Fin cfg0.N) (ht : t.val ≠ 0) :=
  runLater (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => ht ((isFirst_iff t).mp h))
    (iblk m c 2 t) (iblk m c 3 t) (iblk m c 4 t) (iblk m c 5 t) (iblk m c 6 t) (hS m c)

/-- What the result's staging buffer holds after a later point. -/
def outLater (c : Dev nD) (t : Fin cfg0.N) (ht : t.val ≠ 0) : Vec F S400x128 .f32 :=
  VO.read (Elt F) (VO.writes (Elt F) VO.junk (laterRun m c t ht).1)

/-- What the result's staging buffer holds after point `t`. -/
def outAt (c : Dev nD) (t : Fin cfg0.N) : Vec F S400x128 .f32 :=
  if ht : t.val = 0 then outFirst m c else outLater m c t ht

theorem outAt_first (c : Dev nD) : outAt m c t0 = outFirst m c := dif_pos rfl
theorem outAt_later (c : Dev nD) (t : Fin cfg0.N) (ht : t.val ≠ 0) : outAt m c t = outLater m c t ht := dif_neg ht

/-! ## The region invariant -/

/-- Before position `n`: at the first point the scratch at anything (the core's scoped buffers that are no staging
    buffer); afterwards the scratch at h. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (hS m c)

theorem PhiS_zero (c : Dev nD) : PhiS m c 0 = iprop(∃ d, owns (c : Thread nD τ) scM fullShare d) := scopedRest_scratch c
theorem PhiS_succ (c : Dev nD) (n : ℕ) : PhiS m c (n + 1) = owns (c : Thread nD τ) scM fullShare (hS m c) := rfl
theorem PhiS_pos (c : Dev nD) (n : ℕ) (hn : n ≠ 0) : PhiS m c n = owns (c : Thread nD τ) scM fullShare (hS m c) := by
  cases n with
  | zero => exact absurd rfl hn
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q := qOf
  owed _ := 0

theorem A_eq (c : Dev nD) (w : Fin cfg0.W) : (dats m 0 c).A w = V m c (Pipeline.arrRef spec0 w) := by
  dsimp only [dats]
theorem q_eq (c : Dev nD) (w : Fin cfg0.W) : (dats m 0 c).q w = qOf w := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each input's current staging buffer holds its block at every point, fetched there or not. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d

end Cert.KernelIdeal.Gcn

end
-- ==== Proof.KI.Body.lean ====
/-
  The body obligation: at every grid point, from the region invariant and each window's current staging buffer at what
  it then holds, the kernel's body runs to the invariant at the next point and every buffer at what the proof data say
  it leaves. The inputs' buffers hold their blocks; the result's holds anything (its block was written back at the point
  before). At the first point the scratch holds anything and the run stores h into it; at a later point the scratch holds
  h and the run hands it back. What a covered buffer holds after the run's stores is the stores read back.
-/
import proofs.«119001_g89764816486619_cont_sun_m_1084_14_alg».proof.Proof.KI.Data

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [Phi_castSucc, Phi_succ, PhiS_succ, after_0, after_1, after_2, after_3, after_4, after_5, after_6, after_7]
  by_cases ht : t.val = 0
  · obtain rfl : t = t0 := Fin.ext ht
    rw [show PhiS m c (t0 : Fin cfg0.N).val = PhiS m c 0 from rfl, PhiS_zero, outAt_first]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRun m c).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, ⟨%e9, H9⟩⟩
    isplitl [H9]
    · unfold owns; iexists _; isplitr
      swap; · iexact H9
      ipureintro; exact View.read_writes_of_cover _ _ _ _ _ (cover_scratch_first c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (cover_out_first c _ _ _ _ _ _ _ _ _ _ _ _ _ _ _ _ _ _ _ _ _ _ _ _ _ _ _)
  · rw [PhiS_pos m c _ ht, outAt_later m c t ht]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun m c t ht).2 (iblk m c 0 t) (iblk m c 1 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (cover_out_later c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region (the scratch at anything) is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl]
  exact Idealize.SL.BI.Entails.refl _

/-- After the last point the invariant gives the scratch back at something: h is forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 25 := N_0; omega), scopedRest_scratch]
  iintro H; iexists _; iexact H

end Cert.KernelIdeal.Gcn

end
-- ==== Proof.KI.Launch.lean ====
/-
  The launch of the one region whose five adjacency windows read ONE array: for any proof data over the entry
  contents that lends each input window the share `qOf` gives it, owes nothing, satisfies the body obligation and
  whose invariant is entered from, and returns to, the scratch at anything, every weakly fair execution of @main
  terminates without a fault with every window's array at what the write-backs leave (`Dat.arrAt … N`).
-/
import proofs.«119001_g89764816486619_cont_sun_m_1084_14_alg».proof.Proof.KI.Entry

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry

The launch hands the region the four distinct arrays behind its eight windows, each whole at the full share at its
entry contents; the proof data want one points-to per window. x, W and the result have one window each. The
adjacency matrix is read by five windows at once: its full share is split along the share tree into a half, a
quarter, an eighth and two sixteenths, one part to each window, all five at the same contents. -/

/-- The distinct arrays behind the eight windows: x, W, the adjacency matrix, the result. -/
theorem arrRefs_eq : Finset.univ.image (Pipeline.arrRef spec0) = [main_arg0, main_arg2, main_arg1, main_v0].toFinset := by decide

/-- One input window's conjunct of the arrays at entry: its array whole, at the share it is lent, at the entry contents. -/
theorem arr_in {c : Dev nD} (dat : Dat τ (Elt F) Unit ℕ (UR sig nD τ) ℕ cfg0 c) (w : Fin cfg0.W) (hio : (cfg0.win w).isOut = false)
    (hA : dat.A w = V m c (Pipeline.arrRef spec0 w)) (hq : dat.q w = qOf w) :
    ((cfg0.win w).arr.view.loc (c : Thread nD τ) ↦[(cfg0.win w).arr.view.set]{dat.share w} dat.arrAt w 0 : sProp 𝕄)
      = (((c : Thread nD τ).loc (Pipeline.arrRef spec0 w)) ↦{qOf w} V m c (Pipeline.arrRef spec0 w)) := by
  rw [(arr_whole0 w).set_eq_univ]
  unfold Dat.share
  rw [hio, if_neg (by decide), hq, show dat.arrAt w 0 = dat.A w from rfl, hA]

/-- The output window's conjunct: the result array whole, at the full share, at the entry contents. -/
theorem arr_out {c : Dev nD} (dat : Dat τ (Elt F) Unit ℕ (UR sig nD τ) ℕ cfg0 c) (w : Fin cfg0.W) (hio : (cfg0.win w).isOut = true)
    (hA : dat.A w = V m c (Pipeline.arrRef spec0 w)) :
    ((cfg0.win w).arr.view.loc (c : Thread nD τ) ↦[(cfg0.win w).arr.view.set]{dat.share w} dat.arrAt w 0 : sProp 𝕄)
      = (((c : Thread nD τ).loc (Pipeline.arrRef spec0 w)) ↦{fullShare} V m c (Pipeline.arrRef spec0 w)) := by
  rw [(arr_whole0 w).set_eq_univ]
  unfold Dat.share
  rw [hio, if_pos rfl, show dat.arrAt w 0 = dat.A w from rfl, hA]

/-- The distinct arrays' buffers one by one. -/
theorem arrBufs_eq (c : Dev nD) : (Pipeline.arrBufs spec0 c (V m c) : sProp 𝕄)
    = iprop((((c : Thread nD τ).loc main_arg0) ↦{fullShare} V m c main_arg0) ∗ (((c : Thread nD τ).loc main_arg2) ↦{fullShare} V m c main_arg2)
        ∗ (((c : Thread nD τ).loc main_arg1) ↦{fullShare} V m c main_arg1) ∗ (((c : Thread nD τ).loc main_v0) ↦{fullShare} V m c main_v0)) := by
  unfold Pipeline.arrBufs
  rw [bigSep_eq_bigSepL_of_eq _ arrRefs_eq (by decide)]
  rfl

/-- The four arrays, each whole at the full share at its entry contents, make the eight windows' arrays at entry:
    x, W and the result go to their one window; the adjacency matrix is split along the share tree, a half, a quarter,
    an eighth and two sixteenths, one part to each of the five windows that read it. -/
theorem arrays_of_bufs {c : Dev nD} (dat : Dat τ (Elt F) Unit ℕ (UR sig nD τ) ℕ cfg0 c)
    (hA : ∀ w, dat.A w = V m c (Pipeline.arrRef spec0 w)) (hq : ∀ w, dat.q w = qOf w) :
    (Pipeline.arrBufs spec0 c (V m c) : sProp 𝕄) ⊢ dat.arrays (dat.arrAt · 0) := by
  unfold Dat.arrays
  rw [arrBufs_eq, bigSep_W0,
    arr_in m dat 0 rfl (hA 0) (hq 0), arr_in m dat 1 rfl (hA 1) (hq 1), arr_in m dat 2 rfl (hA 2) (hq 2),
    arr_in m dat 3 rfl (hA 3) (hq 3), arr_in m dat 4 rfl (hA 4) (hq 4), arr_in m dat 5 rfl (hA 5) (hq 5),
    arr_in m dat 6 rfl (hA 6) (hq 6), arr_out m dat 7 rfl (hA 7)]
  iintro ⟨Hx, HW, Hadj, Ho⟩
  ihave Hadj := (pointsTo_share (PosShare.mem_left_op_right fullShare)).1 $$ Hadj
  icases Hadj with ⟨H2, Hadj⟩
  ihave Hadj := (pointsTo_share (PosShare.mem_left_op_right fullShare.right)).1 $$ Hadj
  icases Hadj with ⟨H3, Hadj⟩
  ihave Hadj := (pointsTo_share (PosShare.mem_left_op_right fullShare.right.right)).1 $$ Hadj
  icases Hadj with ⟨H4, Hadj⟩
  ihave Hadj := (pointsTo_share (PosShare.mem_left_op_right fullShare.right.right.right)).1 $$ Hadj
  icases Hadj with ⟨H5, H6⟩
  isplitl [Hx]; · iexact Hx
  isplitl [HW]; · iexact HW
  isplitl [H2]; · iexact H2
  isplitl [H3]; · iexact H3
  isplitl [H4]; · iexact H4
  isplitl [H5]; · iexact H5
  isplitl [H6]; · iexact H6
  iexact Ho

/-! ## The launch

No buffer outside the windows' arrays is unscoped, so nothing is routed around the region: the invariant is entered
from the scoped rest alone and returns to it, and the final memory is read window by window. -/

/-- The run of @main from the launch state, for proof data as above. -/
theorem run_of (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qOf w)
    (howed : ∀ c t, (dats 0 c).owed t = 0)
    (hbody : ∀ c, BodyObligationLoose (dats 0 c) (defs₀ (F := F)) Variants.none () Set.univ)
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run defs (onTc (τ := τ) (main (F := F))) ⟨m, fun _ => 0, ρ⟩ (fun r => ∀ c : Dev nD, ∀ w : Fin cfg0.W,
      r.2.mem ((spec0 w).arr.view.loc (c.tc : Thread nD τ)) = (dats 0 c).arrAt w cfg0.N) := by
  classical
  exact Pipeline.θ_run_region_noSem_shared cfgs dats () cellOf_inj (0 : Fin 1) winFacts₀0 emb₁ defs₀ Variants.none m ρ main
    (hbody := hbody) (hne := block_pos0) (harr := arr_whole0) (hstage := stage_whole0) (howed := howed)
    (u₀ := initOf (Pipeline.cells cfgs cellOf_inj) (Pipeline.launchToks cfgs cellOf_inj)) (hu₀ := .rfl)
    (V := V m) (hmain := hmain m Variants.none)
    (hsplit := fun c => arrays_of_bufs m (dats 0 c) (hA c) (hq c))
    (X := fun _ => iprop(emp)) (Y := fun _ => iprop(emp)) (Z := fun _ => iprop(emp))
    (hX := fun c => by rw [unscopedRest0_eq]; iintro -; isplitr <;> iempintro)
    (hin := fun c => (show iprop(emp ∗ Pipeline.scopedRest spec0 c) ⊢ Pipeline.scopedRest spec0 c from by iintro ⟨-, H⟩; iexact H).trans (hin c))
    (hout := fun c => (hout c).trans (by iintro H; isplitr; · iempintro
                                         iexact H))
    (QY := fun _ _ => True)
    (hY := fun c s' => by
      iintro ⟨-, -, HSI⟩; imodintro
      isplitr; · ipureintro; trivial
      iexact HSI)
    (hQ := fun _ h c w => (h c).1 w)

end Cert.KernelIdeal.Gcn

end
-- ==== Proof.KI.Frame.lean ====
/-
  The run of @main and the frame: every weakly fair execution terminates without a fault, each window's array ends at
  what the write-backs leave, and the three argument arrays — only ever read — end as they were launched.
-/
import proofs.«119001_g89764816486619_cont_sun_m_1084_14_alg».proof.Proof.KI.Body
import proofs.«119001_g89764816486619_cont_sun_m_1084_14_alg».proof.Proof.KI.Launch

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, with every window's array named. -/
theorem run_main : θ_run defs (onTc (τ := τ) (main (F := F))) ⟨m, fun _ => 0, ρ⟩ (fun r => ∀ c : Dev nD, ∀ w : Fin cfg0.W,
    r.2.mem ((spec0 w).arr.view.loc (c.tc : Thread nD τ)) = (dats m 0 c).arrAt w cfg0.N) :=
  run_of m ρ (dats m) (A_eq m) (q_eq m) (fun _ _ => rfl) (fun c => (body_obligation m c).loose) (hin m) (hout m)

/-- The run with the result array named and the arguments unchanged: an input window's array is never written. -/
theorem run_named : θ_run defs (onTc (τ := τ) (main (F := F))) ⟨m, fun _ => 0, ρ⟩ (fun r => ∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c 7,
      (h c 0).trans (((dats m 0 c).arrAt_in 0 rfl _).trans (A_eq m c 0)),
      (h c 2).trans (((dats m 0 c).arrAt_in 2 rfl _).trans (A_eq m c 2)),
      (h c 1).trans (((dats m 0 c).arrAt_in 1 rfl _).trans (A_eq m c 1))⟩) (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Gcn

end
-- ==== Proof.KI.Pieces.lean ====
/-
  What the runs' stores are, as the body's named products: the scratch holds h = the hidden-features product of x's and
  W's blocks at the first point; and after any point `t` the result's 400-row block holds, in rows 80·s … 80·s + 79,
  the product of the adjacency band of window 2 + s at `t` with h.
-/
import proofs.«119001_g89764816486619_cont_sun_m_1084_14_alg».proof.Proof.KI.Data
import Idealize.ShloMosaic.Lib.ValueIdx
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Row `p` of band `s` within the 400-row block. -/
def rowOf (s : Fin 5) (p : Fin 80) : Fin 400 := ⟨80 * s.val + p.val, by have := s.isLt; have := p.isLt; omega⟩

/-! ## Reading one of five bands tiling the block

The result's block is written as five unit-stride pieces of 80 rows, the last at rows 320 … 399 first in the list. An
index in band `s` lies below the first row of every later band, so the pieces before band `s`'s pass it over, and it
is element `(p, o)` of band `s`'s piece. -/

theorem rowOf_val (s : Fin 5) (p : Fin 80) : (rowOf s p).val = 80 * s.val + p.val := rfl

/-- An index whose row lies before a band's first row is outside the band. -/
theorem not_mem_band (off : ℕ) (inb : ∀ a, (![off, 0] : Fin 2 → ℕ) a + (![80, 128] : Fin 2 → ℕ) a ≤ S400x128.size a) (r : Fin 400) (o : Fin 128) (h : r.val < off) :
    ix2 r o ∉ (Rect.unit (s := S400x128) ![off, 0] ![80, 128] inb).set := by
  intro hm
  have h0 := (Rect.mem_set_unit.mp hm) 0
  have h1 : off ≤ r.val := h0.1
  omega

/-- Row `off + p`, column `o` of the block is element `(p, o)` of the band whose first row is `off`. -/
theorem emb_band (off : ℕ) (inb : ∀ a, (![off, 0] : Fin 2 → ℕ) a + (![80, 128] : Fin 2 → ℕ) a ≤ S400x128.size a) (r : Fin 400) (p : Fin 80) (o : Fin 128) (h : r.val = off + p.val) :
    (Rect.unit (s := S400x128) ![off, 0] ![80, 128] inb).emb (ix2 p o) = ix2 r o := by
  funext a
  apply Fin.ext
  match a with
  | ⟨0, _⟩ => show off + 1 * p.val = r.val; omega
  | ⟨1, _⟩ => show 0 + 1 * o.val = o.val; omega

/-- A band written last is passed over by an index before its first row. -/
theorem canon_skip_band (off : ℕ) (inb : ∀ a, (![off, 0] : Fin 2 → ℕ) a + (![80, 128] : Fin 2 → ℕ) a ≤ S400x128.size a) (v : FVec F S80x128 .f32)
    (L : List (View.Piece (Elt F) S400x128 .f32)) (r : Fin 400) (o : Fin 128) (h : r.val < off) :
    View.canon (Val := Elt F) ((⟨Rect.unit (s := S400x128) ![off, 0] ![80, 128] inb, v⟩ : View.Piece (Elt F) S400x128 .f32) :: L) (ix2 r o)
      = View.canon L (ix2 r o) :=
  View.canon_cons_of_not_mem _ L (not_mem_band off inb r o h)

/-- A band written last is read at its own rows. -/
theorem canon_hit_band (off : ℕ) (inb : ∀ a, (![off, 0] : Fin 2 → ℕ) a + (![80, 128] : Fin 2 → ℕ) a ≤ S400x128.size a) (v : FVec F S80x128 .f32)
    (L : List (View.Piece (Elt F) S400x128 .f32)) (r : Fin 400) (p : Fin 80) (o : Fin 128) (h : r.val = off + p.val) :
    View.canon (Val := Elt F) ((⟨Rect.unit (s := S400x128) ![off, 0] ![80, 128] inb, v⟩ : View.Piece (Elt F) S400x128 .f32) :: L) (ix2 r o)
      = v (ix2 p o) := by
  rw [← emb_band off inb r p o h]
  exact View.canon_cons_emb (Rect.unit (s := S400x128) ![off, 0] ![80, 128] inb) v L (ix2 p o)

/-- Five bands of 80 rows tiling the 400-row block, the last band first. -/
abbrev bands5 (i4 : ∀ a, (![320, 0] : Fin 2 → ℕ) a + (![80, 128] : Fin 2 → ℕ) a ≤ S400x128.size a) (i3 : ∀ a, (![240, 0] : Fin 2 → ℕ) a + (![80, 128] : Fin 2 → ℕ) a ≤ S400x128.size a)
    (i2 : ∀ a, (![160, 0] : Fin 2 → ℕ) a + (![80, 128] : Fin 2 → ℕ) a ≤ S400x128.size a) (i1 : ∀ a, (![80, 0] : Fin 2 → ℕ) a + (![80, 128] : Fin 2 → ℕ) a ≤ S400x128.size a)
    (i0 : ∀ a, (![0, 0] : Fin 2 → ℕ) a + (![80, 128] : Fin 2 → ℕ) a ≤ S400x128.size a) (v4 v3 v2 v1 v0 : FVec F S80x128 .f32) : List (View.Piece (Elt F) S400x128 .f32) :=
  [⟨Rect.unit (s := S400x128) ![320, 0] ![80, 128] i4, v4⟩, ⟨Rect.unit (s := S400x128) ![240, 0] ![80, 128] i3, v3⟩,
   ⟨Rect.unit (s := S400x128) ![160, 0] ![80, 128] i2, v2⟩, ⟨Rect.unit (s := S400x128) ![80, 0] ![80, 128] i1, v1⟩,
   ⟨Rect.unit (s := S400x128) ![0, 0] ![80, 128] i0, v0⟩]

/-- What five tiling bands leave, read at row `p` of band `s`, is band `s`'s payload at row `p`. -/
theorem canon_bands5 (i4 : ∀ a, (![320, 0] : Fin 2 → ℕ) a + (![80, 128] : Fin 2 → ℕ) a ≤ S400x128.size a) (i3 : ∀ a, (![240, 0] : Fin 2 → ℕ) a + (![80, 128] : Fin 2 → ℕ) a ≤ S400x128.size a)
    (i2 : ∀ a, (![160, 0] : Fin 2 → ℕ) a + (![80, 128] : Fin 2 → ℕ) a ≤ S400x128.size a) (i1 : ∀ a, (![80, 0] : Fin 2 → ℕ) a + (![80, 128] : Fin 2 → ℕ) a ≤ S400x128.size a)
    (i0 : ∀ a, (![0, 0] : Fin 2 → ℕ) a + (![80, 128] : Fin 2 → ℕ) a ≤ S400x128.size a) (v4 v3 v2 v1 v0 : FVec F S80x128 .f32) (p : Fin 80) (o : Fin 128) :
    (View.canon (Val := Elt F) (bands5 i4 i3 i2 i1 i0 v4 v3 v2 v1 v0) (ix2 (rowOf 0 p) o) = v0 (ix2 p o))
      ∧ (View.canon (Val := Elt F) (bands5 i4 i3 i2 i1 i0 v4 v3 v2 v1 v0) (ix2 (rowOf 1 p) o) = v1 (ix2 p o))
      ∧ (View.canon (Val := Elt F) (bands5 i4 i3 i2 i1 i0 v4 v3 v2 v1 v0) (ix2 (rowOf 2 p) o) = v2 (ix2 p o))
      ∧ (View.canon (Val := Elt F) (bands5 i4 i3 i2 i1 i0 v4 v3 v2 v1 v0) (ix2 (rowOf 3 p) o) = v3 (ix2 p o))
      ∧ (View.canon (Val := Elt F) (bands5 i4 i3 i2 i1 i0 v4 v3 v2 v1 v0) (ix2 (rowOf 4 p) o) = v4 (ix2 p o)) := by
  have hp := p.isLt
  have e0 : (rowOf 0 p).val = 0 + p.val := by rw [rowOf_val]; rfl
  have e1 : (rowOf 1 p).val = 80 + p.val := by rw [rowOf_val]; rfl
  have e2 : (rowOf 2 p).val = 160 + p.val := by rw [rowOf_val]; rfl
  have e3 : (rowOf 3 p).val = 240 + p.val := by rw [rowOf_val]; rfl
  have e4 : (rowOf 4 p).val = 320 + p.val := by rw [rowOf_val]; rfl
  unfold bands5
  refine ⟨?_, ?_, ?_, ?_, ?_⟩
  · rw [canon_skip_band 320 i4 v4 _ (rowOf 0 p) o (by omega), canon_skip_band 240 i3 v3 _ (rowOf 0 p) o (by omega),
      canon_skip_band 160 i2 v2 _ (rowOf 0 p) o (by omega), canon_skip_band 80 i1 v1 _ (rowOf 0 p) o (by omega)]
    exact canon_hit_band 0 i0 v0 [] (rowOf 0 p) p o e0
  · rw [canon_skip_band 320 i4 v4 _ (rowOf 1 p) o (by omega), canon_skip_band 240 i3 v3 _ (rowOf 1 p) o (by omega),
      canon_skip_band 160 i2 v2 _ (rowOf 1 p) o (by omega)]
    exact canon_hit_band 80 i1 v1 _ (rowOf 1 p) p o e1
  · rw [canon_skip_band 320 i4 v4 _ (rowOf 2 p) o (by omega), canon_skip_band 240 i3 v3 _ (rowOf 2 p) o (by omega)]
    exact canon_hit_band 160 i2 v2 _ (rowOf 2 p) p o e2
  · rw [canon_skip_band 320 i4 v4 _ (rowOf 3 p) o (by omega)]
    exact canon_hit_band 240 i3 v3 _ (rowOf 3 p) p o e3
  · exact canon_hit_band 320 i4 v4 _ (rowOf 4 p) p o e4

/-! ## The runs' stores read back, over any memrefs and contents -/

/-- A rank-two offset of zeros. -/
theorem off_zero2 : (![0, 0] : Fin 2 → ℕ) = fun _ => 0 :=
  funext fun a => match a with | ⟨0, _⟩ => rfl | ⟨1, _⟩ => rfl

/-- The first point's one store into the scratch, read back, is the hidden-features product of the loaded contents. -/
theorem scratch_first (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : isFirst i) (x1 : Vec F S10000x128 .f32) (x2 : Vec F S128x128 .f32) (a3 a4 a5 a6 a7 : Vec F S80x10000 .f32) :
    VS.read (Elt F) (VS.writes (Elt F) VS.junk (runFirst (F := F) c i arg1 harg1 arg2 harg2 arg3 harg3 arg4 harg4 arg5 harg5 arg6 harg6 arg7 harg7 arg8 harg8 arg9 harg9 hc x1 x2 a3 a4 a5 a6 a7).2.1) = k0_pay2 x1 x2 := by
  rw [View.read_writes_eq_canon _ _ _ (cover_scratch_first c i arg1 harg1 arg2 harg2 arg3 harg3 arg4 harg4 arg5 harg5 arg6 harg6 arg7 harg7 arg8 harg8 arg9 harg9 x1 x2 a3 a4 a5 a6 a7 hc)]
  unfold runFirst
  dsimp only
  sl_unfold_words
  rw [View.canon_unit_zero off_zero2]
  simp only [View.readAt_eq_ld, Memref.IsWhole.read_unread, View.ld_unit_zero (S := S10000x128) off_zero2,
    View.ld_unit_zero (S := S128x128) off_zero2]

/-- The first point's five stores into the result's block, read back band by band: each band of the adjacency matrix
    times the hidden-features product just stored. -/
theorem out_first_bands (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : isFirst i) (x1 : Vec F S10000x128 .f32) (x2 : Vec F S128x128 .f32) (a3 a4 a5 a6 a7 : Vec F S80x10000 .f32)
    (p : Fin 80) (o : Fin 128) :
    (VO.read (Elt F) (VO.writes (Elt F) VO.junk (runFirst (F := F) c i arg1 harg1 arg2 harg2 arg3 harg3 arg4 harg4 arg5 harg5 arg6 harg6 arg7 harg7 arg8 harg8 arg9 harg9 hc x1 x2 a3 a4 a5 a6 a7).1) (ix2 (rowOf 0 p) o) = k0_pay3 a3 (k0_pay2 x1 x2) (ix2 p o))
      ∧ (VO.read (Elt F) (VO.writes (Elt F) VO.junk (runFirst (F := F) c i arg1 harg1 arg2 harg2 arg3 harg3 arg4 harg4 arg5 harg5 arg6 harg6 arg7 harg7 arg8 harg8 arg9 harg9 hc x1 x2 a3 a4 a5 a6 a7).1) (ix2 (rowOf 1 p) o) = k0_pay4 a4 (k0_pay2 x1 x2) (ix2 p o))
      ∧ (VO.read (Elt F) (VO.writes (Elt F) VO.junk (runFirst (F := F) c i arg1 harg1 arg2 harg2 arg3 harg3 arg4 harg4 arg5 harg5 arg6 harg6 arg7 harg7 arg8 harg8 arg9 harg9 hc x1 x2 a3 a4 a5 a6 a7).1) (ix2 (rowOf 2 p) o) = k0_pay5 a5 (k0_pay2 x1 x2) (ix2 p o))
      ∧ (VO.read (Elt F) (VO.writes (Elt F) VO.junk (runFirst (F := F) c i arg1 harg1 arg2 harg2 arg3 harg3 arg4 harg4 arg5 harg5 arg6 harg6 arg7 harg7 arg8 harg8 arg9 harg9 hc x1 x2 a3 a4 a5 a6 a7).1) (ix2 (rowOf 3 p) o) = k0_pay6 a6 (k0_pay2 x1 x2) (ix2 p o))
      ∧ (VO.read (Elt F) (VO.writes (Elt F) VO.junk (runFirst (F := F) c i arg1 harg1 arg2 harg2 arg3 harg3 arg4 harg4 arg5 harg5 arg6 harg6 arg7 harg7 arg8 harg8 arg9 harg9 hc x1 x2 a3 a4 a5 a6 a7).1) (ix2 (rowOf 4 p) o) = k0_pay1 a7 (k0_pay2 x1 x2) (ix2 p o)) := by
  rw [View.read_writes_eq_canon _ _ _ (cover_out_first c i arg1 harg1 arg2 harg2 arg3 harg3 arg4 harg4 arg5 harg5 arg6 harg6 arg7 harg7 arg8 harg8 arg9 harg9 x1 x2 a3 a4 a5 a6 a7 hc)]
  unfold runFirst
  dsimp only
  sl_unfold_words
  simp only [View.readCov_unit_zero (S := S10000x128) _ off_zero2, View.readAt_eq_ld, Memref.IsWhole.read_unread,
    View.ld_unit_zero (S := S10000x128) off_zero2, View.ld_unit_zero (S := S128x128) off_zero2,
    View.ld_unit_zero (S := S80x10000) off_zero2]
  exact canon_bands5 _ _ _ _ _ _ _ _ _ _ p o

/-- A later point's five stores into the result's block, read back band by band: each band of the adjacency matrix
    times what the scratch holds. -/
theorem out_later_bands (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S80x10000 .f32) (harg3 : arg3.IsWhole) (arg4 : Memref sig .tc .vmem S80x10000 .f32) (harg4 : arg4.IsWhole)
    (arg5 : Memref sig .tc .vmem S80x10000 .f32) (harg5 : arg5.IsWhole) (arg6 : Memref sig .tc .vmem S80x10000 .f32) (harg6 : arg6.IsWhole)
    (arg7 : Memref sig .tc .vmem S80x10000 .f32) (harg7 : arg7.IsWhole) (arg8 : Memref sig .tc .vmem S400x128 .f32) (harg8 : arg8.IsWhole)
    (arg9 : Memref sig .tc .vmem S10000x128 .f32) (harg9 : arg9.IsWhole)
    (hc : ¬isFirst i) (a3 a4 a5 a6 a7 : Vec F S80x10000 .f32) (h9 : Vec F S10000x128 .f32)
    (p : Fin 80) (o : Fin 128) :
    (VO.read (Elt F) (VO.writes (Elt F) VO.junk (runLater (F := F) c i arg1 harg1 arg2 harg2 arg3 harg3 arg4 harg4 arg5 harg5 arg6 harg6 arg7 harg7 arg8 harg8 arg9 harg9 hc a3 a4 a5 a6 a7 h9).1) (ix2 (rowOf 0 p) o) = k0_pay3 a3 h9 (ix2 p o))
      ∧ (VO.read (Elt F) (VO.writes (Elt F) VO.junk (runLater (F := F) c i arg1 harg1 arg2 harg2 arg3 harg3 arg4 harg4 arg5 harg5 arg6 harg6 arg7 harg7 arg8 harg8 arg9 harg9 hc a3 a4 a5 a6 a7 h9).1) (ix2 (rowOf 1 p) o) = k0_pay4 a4 h9 (ix2 p o))
      ∧ (VO.read (Elt F) (VO.writes (Elt F) VO.junk (runLater (F := F) c i arg1 harg1 arg2 harg2 arg3 harg3 arg4 harg4 arg5 harg5 arg6 harg6 arg7 harg7 arg8 harg8 arg9 harg9 hc a3 a4 a5 a6 a7 h9).1) (ix2 (rowOf 2 p) o) = k0_pay5 a5 h9 (ix2 p o))
      ∧ (VO.read (Elt F) (VO.writes (Elt F) VO.junk (runLater (F := F) c i arg1 harg1 arg2 harg2 arg3 harg3 arg4 harg4 arg5 harg5 arg6 harg6 arg7 harg7 arg8 harg8 arg9 harg9 hc a3 a4 a5 a6 a7 h9).1) (ix2 (rowOf 3 p) o) = k0_pay6 a6 h9 (ix2 p o))
      ∧ (VO.read (Elt F) (VO.writes (Elt F) VO.junk (runLater (F := F) c i arg1 harg1 arg2 harg2 arg3 harg3 arg4 harg4 arg5 harg5 arg6 harg6 arg7 harg7 arg8 harg8 arg9 harg9 hc a3 a4 a5 a6 a7 h9).1) (ix2 (rowOf 4 p) o) = k0_pay1 a7 h9 (ix2 p o)) := by
  rw [View.read_writes_eq_canon _ _ _ (cover_out_later c i arg1 harg1 arg2 harg2 arg3 harg3 arg4 harg4 arg5 harg5 arg6 harg6 arg7 harg7 arg8 harg8 arg9 harg9 a3 a4 a5 a6 a7 h9 hc)]
  unfold runLater
  dsimp only
  sl_unfold_words
  simp only [View.readAt_eq_ld, Memref.IsWhole.read_unread, View.ld_unit_zero (S := S10000x128) off_zero2,
    View.ld_unit_zero (S := S80x10000) off_zero2]
  exact canon_bands5 _ _ _ _ _ _ _ _ _ _ p o

/-- The scratch holds the hidden-features product of x's and W's blocks at the first point. -/
theorem hS_eq (c : Dev nD) : hS m c = k0_pay2 (iblk m c 0 t0) (iblk m c 1 t0) := by
  unfold hS firstRun
  exact scratch_first c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((isFirst_iff t0).mpr rfl)
    (iblk m c 0 t0) (iblk m c 1 t0) (iblk m c 2 t0) (iblk m c 3 t0) (iblk m c 4 t0) (iblk m c 5 t0) (iblk m c 6 t0)

/-- After the first point, band by band. -/
theorem outFirst_bands (c : Dev nD) (p : Fin 80) (o : Fin 128) :
    (outFirst m c (ix2 (rowOf 0 p) o) = k0_pay3 (iblk m c 2 t0) (k0_pay2 (iblk m c 0 t0) (iblk m c 1 t0)) (ix2 p o))
      ∧ (outFirst m c (ix2 (rowOf 1 p) o) = k0_pay4 (iblk m c 3 t0) (k0_pay2 (iblk m c 0 t0) (iblk m c 1 t0)) (ix2 p o))
      ∧ (outFirst m c (ix2 (rowOf 2 p) o) = k0_pay5 (iblk m c 4 t0) (k0_pay2 (iblk m c 0 t0) (iblk m c 1 t0)) (ix2 p o))
      ∧ (outFirst m c (ix2 (rowOf 3 p) o) = k0_pay6 (iblk m c 5 t0) (k0_pay2 (iblk m c 0 t0) (iblk m c 1 t0)) (ix2 p o))
      ∧ (outFirst m c (ix2 (rowOf 4 p) o) = k0_pay1 (iblk m c 6 t0) (k0_pay2 (iblk m c 0 t0) (iblk m c 1 t0)) (ix2 p o)) := by
  unfold outFirst firstRun
  exact out_first_bands c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((isFirst_iff t0).mpr rfl)
    (iblk m c 0 t0) (iblk m c 1 t0) (iblk m c 2 t0) (iblk m c 3 t0) (iblk m c 4 t0) (iblk m c 5 t0) (iblk m c 6 t0) p o

/-- After a later point, band by band. -/
theorem outLater_bands (c : Dev nD) (t : Fin cfg0.N) (ht : t.val ≠ 0) (p : Fin 80) (o : Fin 128) :
    (outLater m c t ht (ix2 (rowOf 0 p) o) = k0_pay3 (iblk m c 2 t) (hS m c) (ix2 p o))
      ∧ (outLater m c t ht (ix2 (rowOf 1 p) o) = k0_pay4 (iblk m c 3 t) (hS m c) (ix2 p o))
      ∧ (outLater m c t ht (ix2 (rowOf 2 p) o) = k0_pay5 (iblk m c 4 t) (hS m c) (ix2 p o))
      ∧ (outLater m c t ht (ix2 (rowOf 3 p) o) = k0_pay6 (iblk m c 5 t) (hS m c) (ix2 p o))
      ∧ (outLater m c t ht (ix2 (rowOf 4 p) o) = k0_pay1 (iblk m c 6 t) (hS m c) (ix2 p o)) := by
  unfold outLater laterRun
  exact out_later_bands c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => ht ((isFirst_iff t).mp h))
    (iblk m c 2 t) (iblk m c 3 t) (iblk m c 4 t) (iblk m c 5 t) (iblk m c 6 t) (hS m c) p o

/-- After any point the first 80 rows of the result's block are the product of window 2's adjacency band with h. -/
theorem outAt_band0 (c : Dev nD) (t : Fin cfg0.N) (p : Fin 80) (o : Fin 128) :
    outAt m c t (ix2 (rowOf 0 p) o) = k0_pay3 (iblk m c 2 t) (hS m c) (ix2 p o) := by
  by_cases ht : t.val = 0
  · obtain rfl : t = t0 := Fin.ext ht
    rw [outAt_first, hS_eq]
    exact (outFirst_bands m c p o).1
  · rw [outAt_later m c t ht]
    exact (outLater_bands m c t ht p o).1

/-- After any point the second 80 rows of the result's block are the product of window 3's adjacency band with h. -/
theorem outAt_band1 (c : Dev nD) (t : Fin cfg0.N) (p : Fin 80) (o : Fin 128) :
    outAt m c t (ix2 (rowOf 1 p) o) = k0_pay4 (iblk m c 3 t) (hS m c) (ix2 p o) := by
  by_cases ht : t.val = 0
  · obtain rfl : t = t0 := Fin.ext ht
    rw [outAt_first, hS_eq]
    exact (outFirst_bands m c p o).2.1
  · rw [outAt_later m c t ht]
    exact (outLater_bands m c t ht p o).2.1

/-- After any point the third 80 rows of the result's block are the product of window 4's adjacency band with h. -/
theorem outAt_band2 (c : Dev nD) (t : Fin cfg0.N) (p : Fin 80) (o : Fin 128) :
    outAt m c t (ix2 (rowOf 2 p) o) = k0_pay5 (iblk m c 4 t) (hS m c) (ix2 p o) := by
  by_cases ht : t.val = 0
  · obtain rfl : t = t0 := Fin.ext ht
    rw [outAt_first, hS_eq]
    exact (outFirst_bands m c p o).2.2.1
  · rw [outAt_later m c t ht]
    exact (outLater_bands m c t ht p o).2.2.1

/-- After any point the fourth 80 rows of the result's block are the product of window 5's adjacency band with h. -/
theorem outAt_band3 (c : Dev nD) (t : Fin cfg0.N) (p : Fin 80) (o : Fin 128) :
    outAt m c t (ix2 (rowOf 3 p) o) = k0_pay6 (iblk m c 5 t) (hS m c) (ix2 p o) := by
  by_cases ht : t.val = 0
  · obtain rfl : t = t0 := Fin.ext ht
    rw [outAt_first, hS_eq]
    exact (outFirst_bands m c p o).2.2.2.1
  · rw [outAt_later m c t ht]
    exact (outLater_bands m c t ht p o).2.2.2.1

/-- After any point the fifth 80 rows of the result's block are the product of window 6's adjacency band with h. -/
theorem outAt_band4 (c : Dev nD) (t : Fin cfg0.N) (p : Fin 80) (o : Fin 128) :
    outAt m c t (ix2 (rowOf 4 p) o) = k0_pay1 (iblk m c 6 t) (hS m c) (ix2 p o) := by
  by_cases ht : t.val = 0
  · obtain rfl : t = t0 := Fin.ext ht
    rw [outAt_first, hS_eq]
    exact (outFirst_bands m c p o).2.2.2.2
  · rw [outAt_later m c t ht]
    exact (outLater_bands m c t ht p o).2.2.2.2

end Cert.KernelIdeal.Gcn

end
-- ==== Proof.KI.PayAt.lean ====
/-
  The kernel's two matrix products read at an index, at the extended reals: into a zero accumulator each is the plain
  sum over the contracted axis — the hidden features' h[n, o] = Σ_d x[n, d] · W[o, d] (both operands contracted on
  their second axis) and a band's (a · h)[p, o] = Σ_k a[p, k] · h[k, o].
-/
import proofs.«119001_g89764816486619_cont_sun_m_1084_14_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gcn

open Cert.KernelIdeal Cert.KernelIdeal.Gen
open Idealize.ShloMosaic Idealize.ShloMosaic.TcCoe Idealize.ShloMosaic.ValueIdx Idealize.SL.Sem

/-! ## A band product's operand indices, axis by axis

The band product contracts the band's second axis against the hidden features' first: at result index `i` and
contraction position `q` the band is read at `(i 0, q)` and the hidden features at `(q, i 1)`. -/

theorem lhs_band_0 (i : S80x128.Idx) (q : dot_S80x10000_S10000x128_S80x128_1_0_0_1_n_n.contr.Idx) :
    (dot_S80x10000_S10000x128_S80x128_1_0_0_1_n_n.lhsIdx i q 0).val = (i 0).val := by
  unfold DotDims.lhsIdx
  rw [dif_neg (show ¬(0 : Fin S80x10000.rank) ∈ dot_S80x10000_S10000x128_S80x128_1_0_0_1_n_n.lhsBatch by decide), dif_pos (show (0 : Fin S80x10000.rank) ∈ dot_S80x10000_S10000x128_S80x128_1_0_0_1_n_n.lhsNonContracting by decide)]
  rfl
theorem lhs_band_1 (i : S80x128.Idx) (q : dot_S80x10000_S10000x128_S80x128_1_0_0_1_n_n.contr.Idx) :
    (dot_S80x10000_S10000x128_S80x128_1_0_0_1_n_n.lhsIdx i q 1).val = (q ⟨0, by decide⟩).val :=
  dot_S80x10000_S10000x128_S80x128_1_0_0_1_n_n.lhsIdx_val_of_single rfl i q
theorem rhs_band_0 (i : S80x128.Idx) (q : dot_S80x10000_S10000x128_S80x128_1_0_0_1_n_n.contr.Idx) :
    (dot_S80x10000_S10000x128_S80x128_1_0_0_1_n_n.rhsIdx i q 0).val = (q ⟨0, by decide⟩).val :=
  dot_S80x10000_S10000x128_S80x128_1_0_0_1_n_n.rhsIdx_val_of_single rfl i q
theorem rhs_band_1 (i : S80x128.Idx) (q : dot_S80x10000_S10000x128_S80x128_1_0_0_1_n_n.contr.Idx) :
    (dot_S80x10000_S10000x128_S80x128_1_0_0_1_n_n.rhsIdx i q 1).val = (i 1).val := by
  unfold DotDims.rhsIdx
  rw [dif_neg (show ¬(1 : Fin S10000x128.rank) ∈ dot_S80x10000_S10000x128_S80x128_1_0_0_1_n_n.rhsBatch by decide), dif_pos (show (1 : Fin S10000x128.rank) ∈ dot_S80x10000_S10000x128_S80x128_1_0_0_1_n_n.rhsNonContracting by decide)]
  rfl

/-- A band product into the zero accumulator, read at row `p`, feature `o`: the sum over the nodes `k` of the band
    at `(p, k)` times the hidden features at `(k, o)`. -/
theorem band_apply (a : Vec Ideal S80x10000 .f32) (h : Vec Ideal S10000x128 .f32) (p : Fin 80) (o : Fin 128) :
    matmul (F := Ideal) (φ₁ := .f32) (φ₂ := .f32) dot_S80x10000_S10000x128_S80x128_1_0_0_1_n_n none a h (constant (F := Ideal) S80x128 .f32 0x00000000#32) (ix2 p o)
      = ∑ k : Fin 10000, a (ix2 p k) * h (ix2 k o) := by
  simp only [matmul]
  rw [Ideal.matmul_constant_zero_apply, ← Equiv.sum_comp (ValueIdx.contrEquiv1 dot_S80x10000_S10000x128_S80x128_1_0_0_1_n_n 10000 rfl rfl).symm]
  refine Finset.sum_congr rfl fun k _ => ?_
  have hk := ValueIdx.contrEquiv1_symm_val dot_S80x10000_S10000x128_S80x128_1_0_0_1_n_n 10000 rfl rfl k
  have el : dot_S80x10000_S10000x128_S80x128_1_0_0_1_n_n.lhsIdx (ix2 p o) ((ValueIdx.contrEquiv1 dot_S80x10000_S10000x128_S80x128_1_0_0_1_n_n 10000 rfl rfl).symm k) = ix2 p k := funext fun b => Fin.ext (by
    match b with
    | ⟨0, _⟩ => exact lhs_band_0 _ _
    | ⟨1, _⟩ => exact (lhs_band_1 _ _).trans hk)
  have er : dot_S80x10000_S10000x128_S80x128_1_0_0_1_n_n.rhsIdx (ix2 p o) ((ValueIdx.contrEquiv1 dot_S80x10000_S10000x128_S80x128_1_0_0_1_n_n 10000 rfl rfl).symm k) = ix2 k o := funext fun b => Fin.ext (by
    match b with
    | ⟨0, _⟩ => exact (rhs_band_0 _ _).trans hk
    | ⟨1, _⟩ => exact rhs_band_1 _ _)
  rw [el, er]

/-! ## The hidden features' operand indices, axis by axis

Both operands are contracted on their second axis: at result index `i` and contraction position `q` the inputs are
read at `(i 0, q)` and the weights at `(i 1, q)`. -/

theorem lhs_hid_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_hid_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_hid_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_hid_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The hidden features' payload at node `n`, feature `o`. -/
theorem pay_hid_apply (x : Vec Ideal S10000x128 .f32) (w : Vec Ideal S128x128 .f32) (n : Fin 10000) (o : Fin 128) :
    k0_pay2 (F := Ideal) x w (ix2 n o) = ∑ d : Fin 128, x (ix2 n d) * w (ix2 o d) := by
  unfold k0_pay2
  simp only [shapeCast_self, matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 n o) ((ValueIdx.contrEquiv1 dot_S10000x128_S128x128_S10000x128_1_1_0_0_n_n 128 rfl rfl).symm k) = ix2 n k := funext fun b => Fin.ext (by
    match b with
    | ⟨0, _⟩ => exact lhs_hid_0 _ _
    | ⟨1, _⟩ => exact (lhs_hid_1 _ _).trans hk)
  have er : dot_S10000x128_S128x128_S10000x128_1_1_0_0_n_n.rhsIdx (ix2 n o) ((ValueIdx.contrEquiv1 dot_S10000x128_S128x128_S10000x128_1_1_0_0_n_n 128 rfl rfl).symm k) = ix2 o k := funext fun b => Fin.ext (by
    match b with
    | ⟨0, _⟩ => exact rhs_hid_0 _ _
    | ⟨1, _⟩ => exact (rhs_hid_1 _ _).trans hk)
  rw [el, er]

/-- The first band's payload at row `p` of the band, feature `o`. -/
theorem k0_pay3_apply (a : Vec Ideal S80x10000 .f32) (h : Vec Ideal S10000x128 .f32) (p : Fin 80) (o : Fin 128) :
    k0_pay3 (F := Ideal) a h (ix2 p o) = ∑ k : Fin 10000, a (ix2 p k) * h (ix2 k o) := by
  unfold k0_pay3
  exact band_apply a h p o

/-- The second band's payload at row `p` of the band, feature `o`. -/
theorem k0_pay4_apply (a : Vec Ideal S80x10000 .f32) (h : Vec Ideal S10000x128 .f32) (p : Fin 80) (o : Fin 128) :
    k0_pay4 (F := Ideal) a h (ix2 p o) = ∑ k : Fin 10000, a (ix2 p k) * h (ix2 k o) := by
  unfold k0_pay4
  exact band_apply a h p o

/-- The third band's payload at row `p` of the band, feature `o`. -/
theorem k0_pay5_apply (a : Vec Ideal S80x10000 .f32) (h : Vec Ideal S10000x128 .f32) (p : Fin 80) (o : Fin 128) :
    k0_pay5 (F := Ideal) a h (ix2 p o) = ∑ k : Fin 10000, a (ix2 p k) * h (ix2 k o) := by
  unfold k0_pay5
  exact band_apply a h p o

/-- The fourth band's payload at row `p` of the band, feature `o`. -/
theorem k0_pay6_apply (a : Vec Ideal S80x10000 .f32) (h : Vec Ideal S10000x128 .f32) (p : Fin 80) (o : Fin 128) :
    k0_pay6 (F := Ideal) a h (ix2 p o) = ∑ k : Fin 10000, a (ix2 p k) * h (ix2 k o) := by
  unfold k0_pay6
  exact band_apply a h p o

/-- The fifth band's payload at row `p` of the band, feature `o`. -/
theorem k0_pay1_apply (a : Vec Ideal S80x10000 .f32) (h : Vec Ideal S10000x128 .f32) (p : Fin 80) (o : Fin 128) :
    k0_pay1 (F := Ideal) a h (ix2 p o) = ∑ k : Fin 10000, a (ix2 p k) * h (ix2 k o) := by
  unfold k0_pay1
  exact band_apply a h p o

end Cert.KernelIdeal.Gcn

end
-- ==== Proof.Spec.lean ====
/-
  What the graph-convolution layer computes, as one function of its three argument arrays, index by index over the
  extended reals: the hidden features h = x · Wᵀ,  h[n, o] = Σ_d x[n, d] · W[o, d],  and the aggregation
  out = adj · h,  out[r, o] = Σ_k adj[r, k] · h[k, o].  The kernel and the reference both compute exactly this nested
  sum (the kernel in 25 bands of 400 rows, each in five sub-bands of 80 rows, h computed once and kept), so no law of
  the extended reals beyond the sums themselves is needed and finiteness of the inputs is never used.
-/
import Idealize.ShloMosaic.PureOps.Ideal
import Idealize.ShloMosaic.Lib.ValueIdx

noncomputable section

namespace Cert.Gcn

open Idealize.ShloMosaic Idealize.ShloMosaic.ValueIdx

/-- The shapes of the arrays: node features and the result (10000 × 128), the adjacency matrix (10000 × 10000), the
    weight (128 × 128). -/
abbrev SX : Shape := ⟨2, ![10000, 128]⟩
abbrev SA : Shape := ⟨2, ![10000, 10000]⟩
abbrev SW : Shape := ⟨2, ![128, 128]⟩

/-- The hidden features h = x · Wᵀ at node `n` and output feature `o`. -/
def hAt (x : SX.Idx → EReal) (W : SW.Idx → EReal) (n : Fin 10000) (o : Fin 128) : EReal :=
  ∑ d : Fin 128, x (ix2 n d) * W (ix2 o d)

/-- The hidden features as an array. -/
def hid (x : SX.Idx → EReal) (W : SW.Idx → EReal) : SX.Idx → EReal :=
  fun j => hAt x W (j 0) (j 1)

/-- The layer's result at row `r` and feature `o`: row `r` of the adjacency matrix against column `o` of h. -/
def outAt (x : SX.Idx → EReal) (adj : SA.Idx → EReal) (W : SW.Idx → EReal) (r : Fin 10000) (o : Fin 128) : EReal :=
  ∑ k : Fin 10000, adj (ix2 r k) * hAt x W k o

/-- The layer's result as an array. -/
def G (x : SX.Idx → EReal) (adj : SA.Idx → EReal) (W : SW.Idx → EReal) : SX.Idx → EReal :=
  fun i => outAt x adj W (i 0) (i 1)

theorem G_apply (x : SX.Idx → EReal) (adj : SA.Idx → EReal) (W : SW.Idx → EReal) (r : Fin 10000) (o : Fin 128) :
    G x adj W (ix2 r o) = ∑ k : Fin 10000, adj (ix2 r k) * ∑ d : Fin 128, x (ix2 k d) * W (ix2 o d) := rfl

theorem hid_apply (x : SX.Idx → EReal) (W : SW.Idx → EReal) (n : Fin 10000) (o : Fin 128) :
    hid x W (ix2 n o) = ∑ d : Fin 128, x (ix2 n d) * W (ix2 o d) := rfl

end Cert.Gcn

end
-- ==== Proof.KI.Value.lean ====
/-
  From the blocks to the array, at the extended reals: the result array after the run is G of the three argument
  arrays. Point `t` writes back the 400-row band `t` of the result; the 25 bands tile the 10000 rows. Within the band,
  row 80·s + p is row p of the product of the adjacency rows 400·t + 80·s … with h, and h is x · Wᵀ of the whole
  arrays (x's and W's windows are the whole arrays at every point).
-/
import proofs.«119001_g89764816486619_cont_sun_m_1084_14_alg».proof.Proof.KI.Pieces
import proofs.«119001_g89764816486619_cont_sun_m_1084_14_alg».proof.Proof.KI.PayAt
import proofs.«119001_g89764816486619_cont_sun_m_1084_14_alg».proof.Proof.Spec

set_option maxRecDepth 16384

noncomputable section

namespace Cert.KernelIdeal.Gcn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The index maps over the grid

  x's and W's windows sit at block (0, 0) at every point; the five adjacency windows at the 80-row blocks 5t, 5t + 1,
  …, 5t + 4; the result's window at the 400-row block t. Decided once over the 25 points. -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 5 * t.val ∧ win0_2.index t (1 : Fin 2) = 0
    ∧ win0_3.index t (0 : Fin 2) = 5 * t.val + 1 ∧ win0_3.index t (1 : Fin 2) = 0
    ∧ win0_4.index t (0 : Fin 2) = 5 * t.val + 2 ∧ win0_4.index t (1 : Fin 2) = 0
    ∧ win0_5.index t (0 : Fin 2) = 5 * t.val + 3 ∧ win0_5.index t (1 : Fin 2) = 0
    ∧ win0_6.index t (0 : Fin 2) = 5 * t.val + 4 ∧ win0_6.index t (1 : Fin 2) = 0
    ∧ win0_7.index t (0 : Fin 2) = t.val ∧ win0_7.index t (1 : Fin 2) = 0 :=
  (by decide +kernel : ∀ t : Fin grid0.N, _)

/-- A grid point is below 25. -/
theorem t_lt (t : Fin cfg0.N) : t.val < 25 := lt_of_lt_of_eq t.isLt N_0

/-! ## The input blocks read at an index -/

/-- x's block at any point is x itself. -/
theorem x_blk (c : Dev nD) (t : Fin cfg0.N) (n : Fin 10000) (d : Fin 128) :
    (iblk m c 0 t : Vec Ideal S10000x128 .f32) (ix2 n d)
      = (m ((c : Thread nD τ).loc main_arg0) : S10000x128.Idx → Elt Ideal .f32) (ix2 n d) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 10000 + 1 * n.val = n.val; rw [e0]; omega
  | ⟨1, _⟩ => show win0_0.index t 1 * 128 + 1 * d.val = d.val; rw [e1]; omega

/-- W's block at any point is W itself. -/
theorem w_blk (c : Dev nD) (t : Fin cfg0.N) (o : Fin 128) (d : Fin 128) :
    (iblk m c 1 t : Vec Ideal S128x128 .f32) (ix2 o d)
      = (m ((c : Thread nD τ).loc main_arg2) : S128x128.Idx → Elt Ideal .f32) (ix2 o d) := by
  obtain ⟨-, -, e0, e1, -⟩ := idx_facts t
  unfold iblk
  rw [View.read_apply]
  show V m c main_arg2 _ = m (c.tc.loc main_arg2) _
  unfold V
  congr 1
  funext a
  apply Fin.ext
  match a with
  | ⟨0, _⟩ => show win0_1.index t 0 * 128 + 1 * o.val = o.val; rw [e0]; omega
  | ⟨1, _⟩ => show win0_1.index t 1 * 128 + 1 * d.val = d.val; rw [e1]; omega

/-! ## The argument arrays -/

/-- The node features x as core c finds them. -/
abbrev xArr (c : Dev nD) : Vec Ideal S10000x128 .f32 := m ((c : Thread nD τ).loc main_arg0)
/-- The adjacency matrix as core c finds it. -/
abbrev adjArr (c : Dev nD) : Vec Ideal S10000x10000 .f32 := m ((c : Thread nD τ).loc main_arg1)
/-- The weight W as core c finds it. -/
abbrev wArr (c : Dev nD) : Vec Ideal S128x128 .f32 := m ((c : Thread nD τ).loc main_arg2)

/-! ## The adjacency blocks read at an index -/

/-- Row p of window 2's block at point t is row 400·t + 0 + p of the adjacency matrix. -/
theorem adj_blk2 (c : Dev nD) (t : Fin cfg0.N) (p : Fin 80) (k R : Fin 10000) (hR : R.val = 400 * t.val + 0 + p.val) :
    (iblk m c 2 t : Vec Ideal S80x10000 .f32) (ix2 p k)
      = (m ((c : Thread nD τ).loc main_arg1) : S10000x10000.Idx → Elt Ideal .f32) (ix2 R k) := by
  obtain ⟨-, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_2.index t 0 * 80 + 1 * p.val = R.val; rw [e0, hR]; omega
  | ⟨1, _⟩ => show win0_2.index t 1 * 10000 + 1 * k.val = k.val; rw [e1]; omega

/-- Row p of window 3's block at point t is row 400·t + 80 + p of the adjacency matrix. -/
theorem adj_blk3 (c : Dev nD) (t : Fin cfg0.N) (p : Fin 80) (k R : Fin 10000) (hR : R.val = 400 * t.val + 80 + p.val) :
    (iblk m c 3 t : Vec Ideal S80x10000 .f32) (ix2 p k)
      = (m ((c : Thread nD τ).loc main_arg1) : S10000x10000.Idx → Elt Ideal .f32) (ix2 R k) := by
  obtain ⟨-, -, -, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_3.index t 0 * 80 + 1 * p.val = R.val; rw [e0, hR]; omega
  | ⟨1, _⟩ => show win0_3.index t 1 * 10000 + 1 * k.val = k.val; rw [e1]; omega

/-- Row p of window 4's block at point t is row 400·t + 160 + p of the adjacency matrix. -/
theorem adj_blk4 (c : Dev nD) (t : Fin cfg0.N) (p : Fin 80) (k R : Fin 10000) (hR : R.val = 400 * t.val + 160 + p.val) :
    (iblk m c 4 t : Vec Ideal S80x10000 .f32) (ix2 p k)
      = (m ((c : Thread nD τ).loc main_arg1) : S10000x10000.Idx → Elt Ideal .f32) (ix2 R k) := by
  obtain ⟨-, -, -, -, -, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_4.index t 0 * 80 + 1 * p.val = R.val; rw [e0, hR]; omega
  | ⟨1, _⟩ => show win0_4.index t 1 * 10000 + 1 * k.val = k.val; rw [e1]; omega

/-- Row p of window 5's block at point t is row 400·t + 240 + p of the adjacency matrix. -/
theorem adj_blk5 (c : Dev nD) (t : Fin cfg0.N) (p : Fin 80) (k R : Fin 10000) (hR : R.val = 400 * t.val + 240 + p.val) :
    (iblk m c 5 t : Vec Ideal S80x10000 .f32) (ix2 p k)
      = (m ((c : Thread nD τ).loc main_arg1) : S10000x10000.Idx → Elt Ideal .f32) (ix2 R k) := by
  obtain ⟨-, -, -, -, -, -, -, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_5.index t 0 * 80 + 1 * p.val = R.val; rw [e0, hR]; omega
  | ⟨1, _⟩ => show win0_5.index t 1 * 10000 + 1 * k.val = k.val; rw [e1]; omega

/-- Row p of window 6's block at point t is row 400·t + 320 + p of the adjacency matrix. -/
theorem adj_blk6 (c : Dev nD) (t : Fin cfg0.N) (p : Fin 80) (k R : Fin 10000) (hR : R.val = 400 * t.val + 320 + p.val) :
    (iblk m c 6 t : Vec Ideal S80x10000 .f32) (ix2 p k)
      = (m ((c : Thread nD τ).loc main_arg1) : S10000x10000.Idx → Elt Ideal .f32) (ix2 R k) := by
  obtain ⟨-, -, -, -, -, -, -, -, -, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_6.index t 0 * 80 + 1 * p.val = R.val; rw [e0, hR]; omega
  | ⟨1, _⟩ => show win0_6.index t 1 * 10000 + 1 * k.val = k.val; rw [e1]; omega

/-! ## The hidden features and a band's product, as the layer's sums -/

/-- What the scratch holds is h = x · Wᵀ of the whole arrays: h[k, o] = Σ_d x[k, d] · W[o, d]. -/
theorem hS_at (c : Dev nD) (k : Fin 10000) (o : Fin 128) :
    hS m c (ix2 k o)
      = ∑ d : Fin 128, xArr m c (ix2 k d) * wArr m c (ix2 o d) := by
  rw [hS_eq, pay_hid_apply]
  exact Finset.sum_congr rfl fun d _ => by rw [x_blk, w_blk]

/-- A band's product with h, where the band's row p is row R of the adjacency matrix and h is x · Wᵀ, is the layer's
    function at (R, o): both are Σ_k adj[R, k] · Σ_d x[k, d] · W[o, d]. -/
theorem band_is_G (x : Vec Ideal S10000x128 .f32) (adj : Vec Ideal S10000x10000 .f32) (W : Vec Ideal S128x128 .f32)
    (a : Vec Ideal S80x10000 .f32) (h : Vec Ideal S10000x128 .f32) (p : Fin 80) (o : Fin 128) (R : Fin 10000)
    (ha : ∀ k : Fin 10000, a (ix2 p k) = adj (ix2 R k))
    (hh : ∀ k : Fin 10000, h (ix2 k o) = ∑ d : Fin 128, x (ix2 k d) * W (ix2 o d)) :
    ∑ k : Fin 10000, a (ix2 p k) * h (ix2 k o) = Cert.Gcn.G x adj W (ix2 R o) := by
  rw [Cert.Gcn.G_apply]
  exact Finset.sum_congr rfl fun k _ => by rw [ha, hh]

/-! ## What a point writes back -/

/-- Every row of the 400-row block is row p of one of its five 80-row bands. -/
theorem row_split (r : Fin 400) : ∃ (s : Fin 5) (p : Fin 80), r = rowOf s p :=
  ⟨⟨r.val / 80, by have := r.isLt; omega⟩, ⟨r.val % 80, Nat.mod_lt _ (by decide)⟩,
    Fin.ext (by show r.val = 80 * (r.val / 80) + r.val % 80; omega)⟩

/-- Row r of the block point t leaves is row 400·t + r of the layer's function of the whole arrays. -/
theorem out_row (c : Dev nD) (t : Fin cfg0.N) (r : Fin 400) (o : Fin 128) (R : Fin 10000) (hR : R.val = 400 * t.val + r.val) :
    outAt m c t (ix2 r o) = Cert.Gcn.G (m ((c : Thread nD τ).loc main_arg0)) (m ((c : Thread nD τ).loc main_arg1)) (m ((c : Thread nD τ).loc main_arg2)) (ix2 R o) := by
  obtain ⟨s, p, rfl⟩ := row_split r
  match s with
  | ⟨0, _⟩ =>
    have hRs : R.val = 400 * t.val + 0 + p.val := by
      have : R.val = 400 * t.val + (80 * 0 + p.val) := hR
      omega
    refine (outAt_band0 m c t p o).trans ?_
    rw [k0_pay3_apply]
    exact band_is_G (xArr m c) (adjArr m c) (wArr m c) _ _ p o R (fun k => adj_blk2 m c t p k R hRs) (fun k => hS_at m c k o)
  | ⟨1, _⟩ =>
    have hRs : R.val = 400 * t.val + 80 + p.val := by
      have : R.val = 400 * t.val + (80 * 1 + p.val) := hR
      omega
    refine (outAt_band1 m c t p o).trans ?_
    rw [k0_pay4_apply]
    exact band_is_G (xArr m c) (adjArr m c) (wArr m c) _ _ p o R (fun k => adj_blk3 m c t p k R hRs) (fun k => hS_at m c k o)
  | ⟨2, _⟩ =>
    have hRs : R.val = 400 * t.val + 160 + p.val := by
      have : R.val = 400 * t.val + (80 * 2 + p.val) := hR
      omega
    refine (outAt_band2 m c t p o).trans ?_
    rw [k0_pay5_apply]
    exact band_is_G (xArr m c) (adjArr m c) (wArr m c) _ _ p o R (fun k => adj_blk4 m c t p k R hRs) (fun k => hS_at m c k o)
  | ⟨3, _⟩ =>
    have hRs : R.val = 400 * t.val + 240 + p.val := by
      have : R.val = 400 * t.val + (80 * 3 + p.val) := hR
      omega
    refine (outAt_band3 m c t p o).trans ?_
    rw [k0_pay6_apply]
    exact band_is_G (xArr m c) (adjArr m c) (wArr m c) _ _ p o R (fun k => adj_blk5 m c t p k R hRs) (fun k => hS_at m c k o)
  | ⟨4, _⟩ =>
    have hRs : R.val = 400 * t.val + 320 + p.val := by
      have : R.val = 400 * t.val + (80 * 4 + p.val) := hR
      omega
    refine (outAt_band4 m c t p o).trans ?_
    rw [k0_pay1_apply]
    exact band_is_G (xArr m c) (adjArr m c) (wArr m c) _ _ p o R (fun k => adj_blk6 m c t p k R hRs) (fun k => hS_at m c k o)
  | ⟨n + 5, h⟩ => exact absurd h (by omega)

/-- What point t writes back is block t of the layer's function of the whole arrays. -/
theorem flushed_eq (c : Dev nD) (t : Fin cfg0.N) :
    (dats (F := Ideal) m 0 c).flushed 7 t
      = ((cfg0.win 7).blk t).view.read (Elt Ideal) (Cert.Gcn.G (m ((c : Thread nD τ).loc main_arg0)) (m ((c : Thread nD τ).loc main_arg1)) (m ((c : Thread nD τ).loc main_arg2))) := by
  show (cfg0.win 7).cut (grid0.coords t) ((dats (F := Ideal) m 0 c).after 7 t) = _
  rw [after_7]
  obtain ⟨-, -, -, -, -, -, -, -, -, -, -, -, -, -, e0, e1⟩ := idx_facts t
  have ht := t_lt t
  have key : ∀ j : S400x128.Idx, outAt m c t j = Cert.Gcn.G (m ((c : Thread nD τ).loc main_arg0)) (m ((c : Thread nD τ).loc main_arg1)) (m ((c : Thread nD τ).loc main_arg2)) (((cfg0.win 7).blk t).view.emb j) := by
    intro j
    obtain ⟨r, o, rfl⟩ : ∃ (r : Fin 400) (o : Fin 128), j = ix2 r o := ⟨j 0, j 1, eq_ix2 j⟩
    have hemb : ((cfg0.win 7).blk t).view.emb (ix2 r o)
        = (ix2 (⟨400 * t.val + r.val, by have := r.isLt; omega⟩ : Fin 10000) o : S10000x128.Idx) := by
      funext a
      apply Fin.ext
      match a with
      | ⟨0, _⟩ => show win0_7.index t 0 * 400 + 1 * r.val = 400 * t.val + r.val; rw [e0]; omega
      | ⟨1, _⟩ => show win0_7.index t 1 * 128 + 1 * o.val = o.val; rw [e1]; omega
    rw [hemb]
    exact out_row m c t r o _ rfl
  exact funext key

/-! ## The 25 bands tile the rows -/

/-- Row i 0 of the result lies in the block of point (i 0) / 400. -/
theorem cover (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  obtain ⟨t, htv⟩ : ∃ t : Fin cfg0.N, t.val = (i 0).val / 400 :=
    ⟨⟨(i 0).val / 400, by rw [show cfg0.N = 25 from N_0]; omega⟩, rfl⟩
  obtain ⟨-, -, -, -, -, -, -, -, -, -, -, -, -, -, e0, e1⟩ := idx_facts t
  refine ⟨t, flush0_7 t, ?_⟩
  show i ∈ ((View.whole main_v0).slice (win0_7.rect t)).set
  rw [View.set_slice_whole, Rect.mem_set_unit]
  intro a
  match a with
  | ⟨0, _⟩ =>
    show win0_7.index t 0 * 400 ≤ (i 0).val ∧ (i 0).val < win0_7.index t 0 * 400 + 400
    rw [e0, htv]; omega
  | ⟨1, _⟩ =>
    show win0_7.index t 1 * 128 ≤ (i 1).val ∧ (i 1).val < win0_7.index t 1 * 128 + 128
    rw [e1]; omega

/-- The result array after the last write-back is the layer's function of the argument arrays. -/
theorem final_out (c : Dev nD) :
    (dats (F := Ideal) m 0 c).arrAt 7 cfg0.N
      = Cert.Gcn.G (m ((c : Thread nD τ).loc main_arg0)) (m ((c : Thread nD τ).loc main_arg1)) (m ((c : Thread nD τ).loc main_arg2)) := by
  exact (dats (F := Ideal) m 0 c).arrAt_eq_of_cover 7 _ (fun t _ => flushed_eq m c t) cover

end Cert.KernelIdeal.Gcn

end
-- ==== Proof.Ref.lean ====
/-
  The reference computes the layer's function: its result array, the composed term of its three host operations
  (W transposed, x · Wᵀ, adj · h), is G of the argument arrays, index by index.
-/
import proofs.«119001_g89764816486619_cont_sun_m_1084_14_alg».proof.Proof.Gen.ReferenceIdeal.Read
import proofs.«119001_g89764816486619_cont_sun_m_1084_14_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## Where each operation reads its operands, in coordinates

  Each of the three operations reads its operands at an index computed from the result index (and, for a product, from
  the summation variable). At a result index given by its two coordinates these are again indices given by two
  coordinates. -/

/-- The transpose reads W with the two coordinates swapped. -/
theorem idx0_ix2 (d o : Fin 128) : idx_main_v0 (ix2 d o) = ix2 o d :=
  funext fun a => Fin.ext (by match a with | ⟨0, _⟩ => rfl | ⟨1, _⟩ => rfl)

/-- The first product x · Wᵀ at (n, o), summand d, reads x at (n, d). -/
theorem lidx1_ix2 (n : Fin 10000) (o d : Fin 128) : lidx_main_v1 (ix2 n o) d = ix2 n d :=
  funext fun a => Fin.ext (by match a with | ⟨0, _⟩ => rfl | ⟨1, _⟩ => rfl)

/-- The first product x · Wᵀ at (n, o), summand d, reads Wᵀ at (d, o). -/
theorem ridx1_ix2 (n : Fin 10000) (o d : Fin 128) : ridx_main_v1 (ix2 n o) d = ix2 d o :=
  funext fun a => Fin.ext (by match a with | ⟨0, _⟩ => rfl | ⟨1, _⟩ => rfl)

/-- The second product adj · h at (r, o), summand k, reads adj at (r, k). -/
theorem lidx2_ix2 (r : Fin 10000) (o : Fin 128) (k : Fin 10000) : lidx_main_v2 (ix2 r o) k = ix2 r k :=
  funext fun a => Fin.ext (by match a with | ⟨0, _⟩ => rfl | ⟨1, _⟩ => rfl)

/-- The second product adj · h at (r, o), summand k, reads h at (k, o). -/
theorem ridx2_ix2 (r : Fin 10000) (o : Fin 128) (k : Fin 10000) : ridx_main_v2 (ix2 r o) k = ix2 k o :=
  funext fun a => Fin.ext (by match a with | ⟨0, _⟩ => rfl | ⟨1, _⟩ => rfl)

/-! ## The three stages in coordinates -/

/-- Wᵀ at (d, o) is W at (o, d). -/
theorem wT_at (x2 : (⟨S128x128, .f32⟩ : BufTy).Contents (Elt Ideal)) (d o : Fin 128) :
    val_main_v0 (F := Ideal) x2 (ix2 d o) = x2 (ix2 o d) := by
  rw [val_main_v0_apply, idx0_ix2]

/-- h = x · Wᵀ at (n, o) is Σ_d x[n, d] · W[o, d]. -/
theorem h_at (x0 : (⟨S10000x128, .f32⟩ : BufTy).Contents (Elt Ideal)) (x2 : (⟨S128x128, .f32⟩ : BufTy).Contents (Elt Ideal))
    (n : Fin 10000) (o : Fin 128) :
    val_main_v1 (F := Ideal) x0 x2 (ix2 n o) = ∑ d : Fin 128, x0 (ix2 n d) * x2 (ix2 o d) := by
  rw [val_main_v1_apply]
  refine Finset.sum_congr rfl fun d _ => ?_
  rw [lidx1_ix2, ridx1_ix2, wT_at]

/-- out = adj · h at (r, o) is Σ_k adj[r, k] · Σ_d x[k, d] · W[o, d]. -/
theorem out_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (r : Fin 10000) (o : Fin 128) :
    val_main_v2 (F := Ideal) x0 x1 x2 (ix2 r o)
      = ∑ k : Fin 10000, x1 (ix2 r k) * ∑ d : Fin 128, x0 (ix2 k d) * x2 (ix2 o d) := by
  rw [val_main_v2_apply]
  refine Finset.sum_congr rfl fun k _ => ?_
  rw [lidx2_ix2, ridx2_ix2, h_at]

/-- The reference run's last stage (the run's result term is that stage), at the extended reals, is G of the three
    argument arrays. -/
theorem ref_is_G (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v2 (F := Ideal) x0 x1 x2 = Cert.Gcn.G x0 x1 x2 := by
  funext i
  obtain ⟨r, o, rfl⟩ : ∃ (r : Fin 10000) (o : Fin 128), i = ix2 r o := ⟨i 0, i 1, eq_ix2 i⟩
  rw [out_at]
  exact (Cert.Gcn.G_apply x0 x1 x2 r o).symm

end Cert.ReferenceIdeal.RefValue

end
-- ==== Proof.lean ====
/-
  The certificate of the graph-convolution layer  out = adj · (x · Wᵀ)  (x : 10000 × 128, adj : 10000 × 10000,
  W : 128 × 128), computed by one pipelined kernel against the plain two-product reference.

  The kernel walks 25 bands of 400 result rows. At the first band it computes the hidden features h = x · Wᵀ once and
  keeps them in a scratch for all later bands; at every band it multiplies five 80-row slabs of the adjacency matrix
  (five windows onto the one matrix) with h and writes the 400 rows back. The reference transposes W, forms h = x · Wᵀ
  and then adj · h. Over the extended reals both are the same nested sum
      out[r, o] = Σ_k adj[r, k] · Σ_d x[k, d] · W[o, d],
  so the two results agree index by index with no law beyond the sums themselves; finiteness of the inputs is not used.

  * The frames of the kernel, read at machine words and at the extended reals, are one argument at two instances: the
    region's launch with the adjacency matrix lent to its five windows at shares that compose to the whole, the body
    run symbolically at the first point (h stored) and at a later point (h read back), the scratch carried in the
    region invariant, and every argument array, only ever read, ending as launched.
  * The reference's frame is its run with the result dropped.
  * The idealization rewrote no operation, so it preserves the kernel trivially.
  * The equivalence: the kernel's result array is the layer's function G of the arguments (the blocks written back tile
    the array, each the band's products with h), the reference's result is G of its arguments, and the arguments agree.
-/
import proofs.«119001_g89764816486619_cont_sun_m_1084_14_alg».proof.Defs
import proofs.«119001_g89764816486619_cont_sun_m_1084_14_alg».proof.Proof.Gen.Kernel
import proofs.«119001_g89764816486619_cont_sun_m_1084_14_alg».proof.Proof.Gen.KernelIdeal
import proofs.«119001_g89764816486619_cont_sun_m_1084_14_alg».proof.Proof.Gen.ReferenceIdeal
import proofs.«119001_g89764816486619_cont_sun_m_1084_14_alg».proof.Proof.Gen.Pre_finite_inputs
import proofs.«119001_g89764816486619_cont_sun_m_1084_14_alg».proof.Proof.Gen.ReferenceIdeal.Run
import proofs.«119001_g89764816486619_cont_sun_m_1084_14_alg».proof.Proof.K.Frame
import proofs.«119001_g89764816486619_cont_sun_m_1084_14_alg».proof.Proof.KI.Frame
import proofs.«119001_g89764816486619_cont_sun_m_1084_14_alg».proof.Proof.KI.Value
import proofs.«119001_g89764816486619_cont_sun_m_1084_14_alg».proof.Proof.Ref

noncomputable section

namespace Cert.Proof

open Idealize.ShloMosaic Idealize.ShloMosaic.TcCoe Idealize.SL.Sem

/-- The kernel at machine words runs to the end, faults nowhere and leaves its arguments unchanged. -/
theorem frame_k : Cert.frame_Kernel := fun m ρ _ => Cert.Kernel.Gcn.frame (F := Bits) m ρ

/-- The same of the kernel at the extended reals. -/
theorem frame_ki : Cert.frame_KernelIdeal := fun m ρ _ => Cert.KernelIdeal.Gcn.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the layer's function G of those arguments in
    their result arrays. -/
theorem algebraic : Cert.algebraic_KernelIdeal_ReferenceIdeal := by
  intro m ρ m' ρ' _ hagree
  refine ⟨fun c => Cert.Gcn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Gcn.final_out m c), (h c).2⟩)
      (Cert.KernelIdeal.Gcn.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v2_eq, Cert.ReferenceIdeal.RefValue.ref_is_G,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
